-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096x20 : Shape := ⟨2, ![4096, 20]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x50257 .f32) (main_arg1 : IVec S4096x20 32) (main_arg2 : FVec F S4096x20 .f32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_v4 : FVec F S4096x20 .f32 := Host.absf main_arg2
  let main_cst_0 : FVec F S_ .f32 := constant S_ .f32 0x7F800000#32
  let main_v5 : FVec F S4096x20 .f32 := broadcastInDim S4096x20 ![] bcast_S_S4096x20 main_cst_0
  let main_v6 : IVec S4096x20 1 := cmpf .olt main_v4 main_v5
  let main_c_1 : IVec S_ 1 := constantI S_ 1 1#1
  let main_v7 : IVec S_ 1 := (fun x v => Host.reduce IntOp.andi x v reducesTo_S4096x20_S_d0_1 h_S_) main_v6 main_c_1
  let main_v8 : IVec S_ 1 := andi main_v3 main_v7
  let main_c_2 : IVec S_ 32 := constantI S_ 32 0#32
  let main_v9 : IVec S4096x20 32 := broadcastInDim S4096x20 ![] bcast_S_S4096x20 main_c_2
  let main_v10 : IVec S4096x20 1 := cmpi .sge main_arg1 main_v9
  let main_c_3 : IVec S_ 1 := constantI S_ 1 1#1
  let main_v11 : IVec S_ 1 := (fun x v => Host.reduce IntOp.andi x v reducesTo_S4096x20_S_d0_1 h_S_) main_v10 main_c_3
  let main_v12 : IVec S_ 1 := andi main_v8 main_v11
  let main_c_4 : IVec S_ 32 := constantI S_ 32 50257#32
  let main_v13 : IVec S4096x20 32 := broadcastInDim S4096x20 ![] bcast_S_S4096x20 main_c_4
  let main_v14 : IVec S4096x20 1 := cmpi .slt main_arg1 main_v13
  let main_c_5 : IVec S_ 1 := constantI S_ 1 1#1
  let main_v15 : IVec S_ 1 := (fun x v => Host.reduce IntOp.andi x v reducesTo_S4096x20_S_d0_1 h_S_) main_v14 main_c_5
  fn_part1 (F := F) main_v12 main_v15
-- ==== Kernel.lean ====
abbrev S4096x50257 : Shape := ⟨2, ![4096, 50257]⟩
abbrev S4096x20 : Shape := ⟨2, ![4096, 20]⟩
abbrev S4096x1 : Shape := ⟨2, ![4096, 1]⟩
abbrev S256x1024 : Shape := ⟨2, ![256, 1024]⟩
abbrev S256x20 : Shape := ⟨2, ![256, 20]⟩
abbrev S256x1 : Shape := ⟨2, ![256, 1]⟩
abbrev S1x1024 : Shape := ⟨2, ![1, 1024]⟩
abbrev S256 : Shape := ⟨1, ![256]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x50257, .f32⟩
  | .hbm, ⟨1, _⟩ => ⟨S4096x20, .i32⟩
  | .hbm, ⟨2, _⟩ => ⟨S4096x20, .f32⟩
  | .hbm, ⟨3, _⟩ => ⟨S4096x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x20, .i32⟩
  | .local _ .vmem, ⟨3, _⟩ => ⟨S256x20, .i32⟩
  | .local _ .vmem, ⟨4, _⟩ => ⟨S256x20, .f32⟩
  | .local _ .vmem, ⟨5, _⟩ => ⟨S256x20, .f32⟩
  | .local _ .vmem, ⟨6, _⟩ => ⟨S256x1, .f32⟩
  | .local _ .vmem, ⟨7, _⟩ => ⟨S256x1, .f32⟩
  | .local _ .vmem, ⟨8, _⟩ => ⟨S256x20, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 50], ![false, false]⟩

def k0_cond2 (i : grid0.Coords) : BitVec 1 :=
  let arg1 : BitVec 32 := BitVec.ofNat 32 (i 1).val
  let c49_i32 : BitVec 32 := 49#32
  let v289 : BitVec 1 := Scalar.cmpi .eq arg1 c49_i32
  let v290 : BitVec 32 := Scalar.extui v289
  let c0_i32_84 : BitVec 32 := 0#32
  let v291 : BitVec 1 := Scalar.cmpi .ne v290 c0_i32_84
  v291

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S256x20_S256x20_0_0 : ∀ a, (![0, 0] : Fin 2 → Nat) a + S256x20.size a ≤ S256x20.size a
  h_S256x20 : 0 < S256x20.numel
  shapeCasts_S256x20_S256x20 : S256x20.ShapeCasts S256x20
  iota_S1x1024_d1_w32 : S1x1024.Iotas .tc 32 [1]
  inb_S256x1024_S256x1024_0_0 : ∀ a, (![0, 0] : Fin 2 → Nat) a + S256x1024.size a ≤ S256x1024.size a
  h_S256x1024 : 0 < S256x1024.numel
  slices_S256x20_o0_0_S256x1 : S256x20.Slices ![0, 0] S256x1
  broadcasts_S256x1_S256x1024 : S256x1.Broadcasts S256x1024
  broadcasts_S1x1024_S256x1024 : S1x1024.Broadcasts S256x1024
  natLt_1_32 : 1 < 32
  reduces_S256x1024_S256 : S256x1024.Reduces [1] S256
  inb_S256x20_S256x1_0_0 : ∀ a, (![0, 0] : Fin 2 → Nat) a + S256x1.size a ≤ S256x20.size a
  h_S256x1 : 0 < S256x1.numel
  shapeCasts_S256x1_S256 : S256x1.ShapeCasts S256
  shapeCasts_S256_S256x1 : S256.ShapeCasts S256x1
  slices_S256x20_o0_1_S256x1 : S256x20.Slices ![0, 1] S256x1
  inb_S256x20_S256x1_0_1 : ∀ a, (![0, 1] : Fin 2 → Nat) a + S256x1.size a ≤ S256x20.size a
  slices_S256x20_o0_2_S256x1 : S256x20.Slices ![0, 2] S256x1
  inb_S256x20_S256x1_0_2 : ∀ a, (![0, 2] : Fin 2 → Nat) a + S256x1.size a ≤ S256x20.size a
  slices_S256x20_o0_3_S256x1 : S256x20.Slices ![0, 3] S256x1
  inb_S256x20_S256x1_0_3 : ∀ a, (![0, 3] : Fin 2 → Nat) a + S256x1.size a ≤ S256x20.size a
  slices_S256x20_o0_4_S256x1 : S256x20.Slices ![0, 4] S256x1
  inb_S256x20_S256x1_0_4 : ∀ a, (![0, 4] : Fin 2 → Nat) a + S256x1.size a ≤ S256x20.size a
  slices_S256x20_o0_5_S256x1 : S256x20.Slices ![0, 5] S256x1
  inb_S256x20_S256x1_0_5 : ∀ a, (![0, 5] : Fin 2 → Nat) a + S256x1.size a ≤ S256x20.size a
  slices_S256x20_o0_6_S256x1 : S256x20.Slices ![0, 6] S256x1
  inb_S256x20_S256x1_0_6 : ∀ a, (![0, 6] : Fin 2 → Nat) a + S256x1.size a ≤ S256x20.size a
  slices_S256x20_o0_7_S256x1 : S256x20.Slices ![0, 7] S256x1
  inb_S256x20_S256x1_0_7 : ∀ a, (![0, 7] : Fin 2 → Nat) a + S256x1.size a ≤ S256x20.size a
  slices_S256x20_o0_8_S256x1 : S256x20.Slices ![0, 8] S256x1
  inb_S256x20_S256x1_0_8 : ∀ a, (![0, 8] : Fin 2 → Nat) a + S256x1.size a ≤ S256x20.size a
  slices_S256x20_o0_9_S256x1 : S256x20.Slices ![0, 9] S256x1
  inb_S256x20_S256x1_0_9 : ∀ a, (![0, 9] : Fin 2 → Nat) a + S256x1.size a ≤ S256x20.size a
  slices_S256x20_o0_10_S256x1 : S256x20.Slices ![0, 10] S256x1
  inb_S256x20_S256x1_0_10 : ∀ a, (![0, 10] : Fin 2 → Nat) a + S256x1.size a ≤ S256x20.size a
  slices_S256x20_o0_11_S256x1 : S256x20.Slices ![0, 11] S256x1
  inb_S256x20_S256x1_0_11 : ∀ a, (![0, 11] : Fin 2 → Nat) a + S256x1.size a ≤ S256x20.size a
  slices_S256x20_o0_12_S256x1 : S256x20.Slices ![0, 12] S256x1
  inb_S256x20_S256x1_0_12 : ∀ a, (![0, 12] : Fin 2 → Nat) a + S256x1.size a ≤ S256x20.size a
  slices_S256x20_o0_13_S256x1 : S256x20.Slices ![0, 13] S256x1
  inb_S256x20_S256x1_0_13 : ∀ a, (![0, 13] : Fin 2 → Nat) a + S256x1.size a ≤ S256x20.size a
  slices_S256x20_o0_14_S256x1 : S256x20.Slices ![0, 14] S256x1
  inb_S256x20_S256x1_0_14 : ∀ a, (![0, 14] : Fin 2 → Nat) a + S256x1.size a ≤ S256x20.size a
  slices_S256x20_o0_15_S256x1 : S256x20.Slices ![0, 15] S256x1
  inb_S256x20_S256x1_0_15 : ∀ a, (![0, 15] : Fin 2 → Nat) a + S256x1.size a ≤ S256x20.size a
  slices_S256x20_o0_16_S256x1 : S256x20.Slices ![0, 16] S256x1
  inb_S256x20_S256x1_0_16 : ∀ a, (![0, 16] : Fin 2 → Nat) a + S256x1.size a ≤ S256x20.size a
  slices_S256x20_o0_17_S256x1 : S256x20.Slices ![0, 17] S256x1
  inb_S256x20_S256x1_0_17 : ∀ a, (![0, 17] : Fin 2 → Nat) a + S256x1.size a ≤ S256x20.size a
  slices_S256x20_o0_18_S256x1 : S256x20.Slices ![0, 18] S256x1
  inb_S256x20_S256x1_0_18 : ∀ a, (![0, 18] : Fin 2 → Nat) a + S256x1.size a ≤ S256x20.size a
  slices_S256x20_o0_19_S256x1 : S256x20.Slices ![0, 19] S256x1
  inb_S256x20_S256x1_0_19 : ∀ a, (![0, 19] : Fin 2 → Nat) a + S256x1.size a ≤ S256x20.size a
  reduces_S256x20_S256 : S256x20.Reduces [1] S256
  inb_S256x1_S256x1_0_0 : ∀ a, (![0, 0] : Fin 2 → Nat) a + S256x1.size a ≤ S256x1.size a
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x1024.size a < S4096x50257.size a
  hwx0_0 : ∀ i : grid0.Coords, EltTy.bits .f32 = 32 ∨ (Rect.unit (s := S4096x50257) (fun a => cc0_transform_0 i a * S256x1024.size a) (fun a => (Pipeline.Clip.of (cc0_transform_0 i a) (S256x1024.size a) (S4096x50257.size a)).extent (S256x1024.size a)) fun a => Pipeline.Clip.inb (Pipeline.Clip.ok_of (hstart0_0 i a))).WholeWords (EltTy.packing .f32)
  hwxs0_0 : ∀ i : grid0.Coords, EltTy.bits .f32 = 32 ∨ (Rect.unit (s := S256x1024) (fun _ => 0) (fun a => (Pipeline.Clip.of (cc0_transform_0 i a) (S256x1024.size a) (S4096x50257.size a)).extent (S256x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x20.size a ≤ S4096x20.size a
  hwx0_1 : ∀ i : grid0.Coords, EltTy.bits .i32 = 32 ∨ (Rect.block (s := S4096x20) S256x20.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x20.size a ≤ S4096x20.size a
  hwx0_2 : ∀ i : grid0.Coords, EltTy.bits .f32 = 32 ∨ (Rect.block (s := S4096x20) S256x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

abbrev win0_0 : Pipeline.Window sig grid0 :=
  Pipeline.Window.ofSpecClip (Memref.whole main_arg0) S256x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096x20 : Shape := ⟨2, ![4096, 20]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096x20, .i32⟩
  | .hbm, ⟨2, _⟩ => ⟨S4096x20, .f32⟩
  | .hbm, ⟨3, _⟩ => ⟨S_, .i32⟩
  | .hbm, ⟨4, _⟩ => ⟨S4096x20, .i32⟩
  | .hbm, ⟨5, _⟩ => ⟨S4096x20, .i1⟩
  | .hbm, ⟨6, _⟩ => ⟨S_, .i32⟩
  | .hbm, ⟨7, _⟩ => ⟨S4096x20, .i32⟩
  | .hbm, ⟨8, _⟩ => ⟨S4096x20, .i32⟩
  | .hbm, ⟨9, _⟩ => ⟨S4096x20, .i32⟩
  | .hbm, ⟨10, _⟩ => ⟨S4096x20x1, .i32⟩
  | .hbm, ⟨11, _⟩ => ⟨S1, .i32⟩
  | .hbm, ⟨12, _⟩ => ⟨S_, .i32⟩
  | .hbm, ⟨13, _⟩ => ⟨S4096x20x1, .i32⟩
  | .hbm, ⟨14, _⟩ => ⟨S4096x20x1, .i1⟩
  | .hbm, ⟨15, _⟩ => ⟨S1x1x1, .i32⟩
  | .hbm, ⟨16, _⟩ => ⟨S4096x20x1, .i32⟩
  | .hbm, ⟨17, _⟩ => ⟨S4096x20x1, .i1⟩
  | .hbm, ⟨18, _⟩ => ⟨S4096x20x1, .i1⟩
  | .hbm, ⟨19, _⟩ => ⟨S_, .i1⟩
  | .hbm, ⟨20, _⟩ => ⟨S4096x20, .i1⟩
  | .hbm, ⟨21, _⟩ => ⟨S4096x20, .f32⟩
  | .hbm, ⟨22, _⟩ => ⟨S_, .f32⟩
  | .hbm, ⟨23, _⟩ => ⟨S4096x20, .f32⟩
  | .hbm, ⟨24, _⟩ => ⟨S4096x20, .f32⟩
  | .hbm, ⟨25, _⟩ => ⟨S4096x20, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  shapeCasts_S4096x20_S4096x20x1 : S4096x20.ShapeCasts S4096x20x1
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  reducesTo_S4096x20_S_d0_1 : S4096x20.ReducesTo [0, 1] S_
  gather_S4096x50257_S4096x20x1_S4096x20_n_1_0_0_1_2_11_wf : GatherDims.WF S4096x50257 S4096x20x1 S4096x20 [] [1] [0] [1] [0] 2 ![1, 1]

variable [Facts₀]

def gather_S4096x50257_S4096x20x1_S4096x20_n_1_0_0_1_2_11 : GatherDims S4096x50257 S4096x20x1 S4096x20 where
  offsetDims := []
  collapsedSliceDims := [1]
  operandBatchingDims := [0]
  startIndicesBatchingDims := [0]
  startIndexMap := [1]
  indexVectorDim := 2
  sliceSizes := ![1, 1]
  wf := gather_S4096x50257_S4096x20x1_S4096x20_n_1_0_0_1_2_11_wf

class Facts : Prop extends Facts₀ where

variable [Facts]
-- ==== Proof.BitsPoints.lean ====
/-
  The two branch conditions of the policy-gradient-loss kernel body as predicates of the grid point, and where they
  hold: a point of the 16 x 50 grid is (batch tile, vocabulary tile); the running per-row sums are reset at vocabulary
  tile 0 and the weighted row sum is written out at vocabulary tile 49. Also: which points leave the output window
  untouched, the staging memrefs the body is called with, and the kernel's own accumulator buffer as a memref.
-/
import proofs.«404340_j11991548690975_1_alg».proof.Proof.Gen.Kernel.Frame
import proofs.«404340_j11991548690975_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- "This is vocabulary tile 0": the condition under which the body zeroes the running sums. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 50 = 0 :=
  (by decide +kernel : ∀ t : Fin grid0.N, condFirst (grid0.coords t) ↔ t.val % 50 = 0)

/-- "This is vocabulary tile 49", the last: the condition under which the body writes the weighted row sums. -/
abbrev condLast (i : grid0.Coords) : Prop := k0_cond2 i = 1#1
theorem hcondLast : ∀ t : Fin cfg0.N, condLast (grid0.coords t) ↔ t.val % 50 = 49 :=
  (by decide +kernel : ∀ t : Fin grid0.N, condLast (grid0.coords t) ↔ t.val % 50 = 49)

/-- The three input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle away from the last vocabulary tile, and is not written back there. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel

/-- Each window's current staging memref at point `t`, and its wholeness. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x20 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x20 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The running sums' buffer (256 rows by 20 positions), the kernel's own. -/
abbrev accM : Memref sig .tc .vmem S256x20 .f32 := Memref.whole cc0_scratch0
abbrev accV : View sig .tc .vmem S256x20 .f32 := (accM).view
/-- One staging buffer of the output window, through which its contents are stated. -/
abbrev outV : View sig .tc .vmem S256x1 .f32 := (Memref.whole cc0_stg3_0 : Memref sig .tc .vmem S256x1 .f32).view

/-- What the region lends the body besides the windows: the running sums' buffer at some contents, and the generator
    register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.BitsRunMid.lean ====
/-
  The kernel body at a vocabulary tile that is neither the first nor the last of its row of the grid: it reads the tile
  of scores, the tile of target ids and, position by position, the running sums' column, and stores each column back
  with the tile's contribution added. The result is recorded as the list of stores the running sums' buffer ends with.
-/
import proofs.«404340_j11991548690975_1_alg».proof.Proof.BitsPoints

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The stores the body leaves in the running sums' buffer (last first) at a middle tile, with the proof that from the
    five buffers at their contents the body runs to the continuation holding the four windows' buffers unchanged and
    the running sums' buffer with those stores made. -/
noncomputable def runMid (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : ¬condLast i)
    (x0 : Vec F S256x1024 .f32) (x1 : Vec F S256x20 .i32) (xs : Vec F S256x20 .f32) :
    { LS : List (View.Piece (Elt F) S256x20 .f32) //
      ∀ (x2 : Vec F S256x20 .f32) (x3 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, fun x2 x3 E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Body

end
-- ==== Proof.BitsRunFirst.lean ====
/-
  The kernel body at vocabulary tile 0 of a row of the grid: it first zeroes the running sums' buffer (whatever it
  held), then adds the tile's contribution to each position's column as at every tile.
-/
import proofs.«404340_j11991548690975_1_alg».proof.Proof.BitsRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The stores the body leaves in the running sums' buffer (last first) at the first tile of a row, with the proof that
    from the five buffers — the running sums' at anything — the body runs to the continuation holding the four
    windows' buffers unchanged and the running sums' buffer with those stores made. -/
noncomputable def runFirst (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : condFirst i) (hc2 : ¬condLast i)
    (x0 : Vec F S256x1024 .f32) (x1 : Vec F S256x20 .i32) :
    { LS : List (View.Piece (Elt F) S256x20 .f32) //
      ∀ (x2 : Vec F S256x20 .f32) (x3 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, fun x2 x3 E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Body

end
-- ==== Proof.BitsRunLast.lean ====
/-
  The kernel body at vocabulary tile 49, the last of a row of the grid: after adding the tile's contribution to each
  position's column of the running sums it reads the sums and the tile of rewards and stores, row by row, the sum over
  the 20 positions of their products into the output window's buffer.
-/
import proofs.«404340_j11991548690975_1_alg».proof.Proof.BitsRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The stores the body leaves in the output window's buffer and in the running sums' buffer (last first) at the last
    tile of a row, with the proof that from the five buffers — the output's at anything — the body runs to the
    continuation holding the three input windows' buffers unchanged and the other two with those stores made. -/
noncomputable def runLast (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : condLast i)
    (x0 : Vec F S256x1024 .f32) (x1 : Vec F S256x20 .i32) (x2 : Vec F S256x20 .f32) (xs : Vec F S256x20 .f32) :
    Σ' (LO : List (View.Piece (Elt F) S256x1 .f32)), { LS : List (View.Piece (Elt F) S256x20 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, ?_, fun E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.BitsFrame.lean ====
/-
  The frame of the policy-gradient-loss program at the word level: from any initial memory, every fair execution of
  the program on the TensorCores runs to the end, and at the end the three argument arrays (scores, target ids,
  rewards) hold what they held at the start. The pipeline copies blocks of the three arrays into staging buffers and
  never writes them back; the body stores only into the output's staging buffer and into the running sums' buffer;
  the host operations after the region write five buffers of their own. Nothing in this statement reads what the output
  holds, so its contents are not named: at the word level they would depend on the words the clipped copy of the last
  vocabulary tile leaves past the end of the scores array.
-/
import proofs.«404340_j11991548690975_1_alg».proof.Proof.BitsRunLast
import Idealize.ShloMosaic.Lib.Pipeline.Dat
import Idealize.ShloMosaic.Lib.Pipeline.Frame
import Idealize.ShloMosaic.Lib.Pipeline.FrameSuffix
import Idealize.ShloMosaic.Lib.Pipeline.Kit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is recorded of each window -/

/-- The output window (the fourth) is the one whose contents are not named. -/
def forgets : Fin 4 → Bool := fun w => w.val == 3

/-- Per core: each array as the region finds it; after the body at point `t`, the scores' staging buffer at the
    scores' block there, filled out past the array's end with the zero word (only its part inside the array is ever
    asked for); the target ids' and the rewards' staging buffers at their blocks; the output's at contents nobody
    names. The body borrows the running sums' buffer and the generator register, owes no signal, and holds every
    array whole. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Scalar.ofBits .f32 0#32) (Gen.iblk m c 0 t)
    | ⟨1, _⟩ => Gen.iblk m c 1 t
    | ⟨2, _⟩ => Gen.iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after_0 (c : Dev nD) (t : Fin cfg0.N) :
    (dats m 0 c).after 0 t = win0_0.fill (grid0.coords t) (fun _ => Scalar.ofBits .f32 0#32) (Gen.iblk m c 0 t) := by
  dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]

/-- The scores' staging buffer has just been filled at every point: it holds the scores' block on the part inside
    the array, and past the array's end whatever it held (`d`). -/
theorem before_0 (c : Dev nD) (t : Fin cfg0.N) (d) :
    (dats m 0 c).before 0 t d = win0_0.fill (grid0.coords t) d (Gen.iblk m c 0 t) := by
  unfold Dat.before; rw [if_pos (fetch0_0 t)]
  unfold Dat.fetched Dat.blockOf Gen.iblk; rw [A_eq]; try rfl

/-- The target ids' and the rewards' staging buffers hold their blocks at every point of a row of the grid: filled
    at the row's first point, untouched by the body afterwards. -/
theorem before_1 (c : Dev nD) (t : Fin cfg0.N) (d) : (dats m 0 c).before 1 t d = Gen.iblk m c 1 t :=
  Gen.before0_1_of m (dats m 0 c) (A_eq m c 1) (after_1 m c) t d
theorem before_2 (c : Dev nD) (t : Fin cfg0.N) (d) : (dats m 0 c).before 2 t d = Gen.iblk m c 2 t :=
  Gen.before0_2_of m (dats m 0 c) (A_eq m c 2) (after_2 m c) t d

/-! ## The body at a point of the grid -/

/-- The scores' block filled out with the zero word, cut back to its part inside the array, is the block. -/
theorem cut_after_0 (c : Dev nD) (t : Fin cfg0.N) :
    win0_0.cut (grid0.coords t) ((dats m 0 c).after 0 t) = Gen.iblk m c 0 t := by
  rw [after_0]; exact win0_0.cut_fill _ _ _

/-- A buffer's elements held at some contents of the buffer are owned at what the memref reads of them. -/
theorem owns_some (c : Dev nD) {sp : Space} {sh : Shape} {e : EltTy} (M : Memref sig .tc sp sh e) :
    (iprop(∃ f, M.view.loc (c : Thread nD τ) ↦[M.view.set]{fullShare} f) : sProp 𝕄)
      ⊢ iprop(∃ d, owns (c : Thread nD τ) M fullShare d) := by
  iintro ⟨%f, H⟩; iexists (M.view.read (Elt F) f)
  iapply (owns_intro (c : Thread nD τ) M fullShare f); iexact H

set_option maxHeartbeats 1600000 in
/-- At any point the body runs from what the region lends it and the four current staging buffers — the three inputs'
    at their blocks, the output's at anything — to the same again: the inputs' buffers as found (of the scores', its
    part inside the array is what is asked), the output's and the running sums' at whatever the stores left. A point is
    the first tile of its row, the last, or neither (never both: a row has fifty tiles), and the body's run in that case
    applies. -/
theorem sound_body (c : Dev nD) (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ X, owns (c : Thread nD τ) (ms3 t) fullShare X))
    ⊢ wp frame (wpE (defs₀ (F := F)) Variants.none c none) Set.univ (bodyAt0 t) (fun _ =>
        iprop((dats m 0 c).Φ t.succ ∗ (dats m 0 c).owesAt () t.succ
          ∗ (∃ d, owns (c : Thread nD τ) (ms0 t) fullShare
                (win0_0.fill (grid0.coords t) d (win0_0.cut (grid0.coords t) ((dats m 0 c).after 0 t))))
          ∗ owns (c : Thread nD τ) (ms1 t) fullShare ((dats m 0 c).after 1 t)
          ∗ owns (c : Thread nD τ) (ms2 t) fullShare ((dats m 0 c).after 2 t)
          ∗ (∃ X, owns (c : Thread nD τ) (ms3 t) fullShare X))) := by
  unfold bodyAt0
  rw [cut_after_0]
  simp only [before_0, before_1, before_2, after_1, after_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  have hN : t.val < 800 := lt_of_lt_of_eq t.isLt (show cfg0.N = 800 from N_0)
  iintro ⟨⟨⟨%ds, HS⟩, HR⟩, Ho, ⟨%d0, H0⟩, ⟨%d1, H1⟩, ⟨%d2, H2⟩, ⟨%d3, H3⟩⟩
  by_cases hF : t.val % 50 = 0
  · -- the first tile of a row: the running sums are reset, the output is not touched
    have hL : ¬ t.val % 50 = 49 := by omega
    iapply ((runFirst c (grid0.coords t) _ _ _ _ _ _ _ _ _ _ ((hcondFirst t).mpr hF) (fun h => hL ((hcondLast t).mp h))
      (win0_0.fill (grid0.coords t) d0 (Gen.iblk m c 0 t)) (Gen.iblk m c 1 t)).2 (Gen.iblk m c 2 t) d3 Set.univ _)
    isplitl [H0]; · iexact H0
    isplitl [H1]; · iexact H1
    isplitl [H2]; · iexact H2
    isplitl [H3]; · iexact H3
    isplitl [HS]; · iexists ds; iexact HS
    iintro ⟨H0, H1, H2, H3, ⟨%f, HS⟩⟩
    isplitl [HS HR]
    · isplitl [HS]
      · iapply (owns_some c accM); iexists _; iexact HS
      · iexact HR
    isplitl [Ho]; · iexact Ho
    isplitl [H0]; · iexists d0; iexact H0
    isplitl [H1]; · iexact H1
    isplitl [H2]; · iexact H2
    iexists d3; iexact H3
  · by_cases hL : t.val % 50 = 49
    · -- the last tile of a row: the output's buffer is stored into, at contents nobody names
      iapply ((runLast c (grid0.coords t) _ _ _ _ _ _ _ _ _ _ (fun h => hF ((hcondFirst t).mp h)) ((hcondLast t).mpr hL)
        (win0_0.fill (grid0.coords t) d0 (Gen.iblk m c 0 t)) (Gen.iblk m c 1 t) (Gen.iblk m c 2 t) ds).2.2 Set.univ _)
      isplitl [H0]; · iexact H0
      isplitl [H1]; · iexact H1
      isplitl [H2]; · iexact H2
      isplitl [H3]; · iexists d3; iexact H3
      isplitl [HS]; · iexact HS
      iintro ⟨H0, H1, H2, ⟨%g, H3⟩, ⟨%f, HS⟩⟩
      isplitl [HS HR]
      · isplitl [HS]
        · iapply (owns_some c accM); iexists _; iexact HS
        · iexact HR
      isplitl [Ho]; · iexact Ho
      isplitl [H0]; · iexists d0; iexact H0
      isplitl [H1]; · iexact H1
      isplitl [H2]; · iexact H2
      iapply (owns_some c (ms3 t)); iexists _; iexact H3
    · -- a tile in between: the running sums are added to, the output is not touched
      iapply ((runMid c (grid0.coords t) _ _ _ _ _ _ _ _ _ _ (fun h => hF ((hcondFirst t).mp h)) (fun h => hL ((hcondLast t).mp h))
        (win0_0.fill (grid0.coords t) d0 (Gen.iblk m c 0 t)) (Gen.iblk m c 1 t) ds).2 (Gen.iblk m c 2 t) d3 Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · isplitl [HS]
        · iapply (owns_some c accM); iexists _; iexact HS
        · iexact HR
      isplitl [Ho]; · iexact Ho
      isplitl [H0]; · iexists d0; iexact H0
      isplitl [H1]; · iexact H1
      isplitl [H2]; · iexact H2
      iexists d3; iexact H3

/-- The body obligation the pipeline's loop asks, at every point: the four windows taken one by one, it is the run above. -/
theorem body_obligation (c : Dev nD) :
    BodyObligationLoose (dats (F := F) m 0 c) (defs₀ (F := F)) Variants.none () Set.univ forgets := fun t => by
  rw [bigSep_W0, bigSep_W0]
  exact sound_body m c t

/-! ## The host operations after the region -/

/-- The buffers the five host operations after the region write: each its own result. -/
def T : Finset (Ref sig .tc) := {main_cst, main_v1, main_v2, main_cst_0, main_v3}

/-- Every write of those operations lands in `T`. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.nullary_writes, StableHlo.unary_writes, StableHlo.binary_writes, Finset.mem_singleton] at hb
    obtain rfl := Proc.devRef_injective _ hb
    simp only [T, Finset.mem_insert, Finset.mem_singleton, true_or, or_true]

/-! ## The run and the frame -/

set_option backward.isDefEq.respectTransparency.types false in
/-- From any memory with zero counters, every fair execution of the program on the TensorCores ends, and at the end
    every input array of the pipeline holds what it held at the start (of the output nothing is said), and every
    other buffer outside the region that the later host operations do not write holds what it held. -/
theorem run_main : θ_run defs (onTc (τ := τ) (main (F := F))) (s₀ m ρ)
    (Pipeline.RDat.FramePostR (cfgs 0) (fun c => (dats m 0 c).toRForget forgets) T (Gen.V m)) :=
  Pipeline.RDat.θ_run_frame_around_T cfgs (0 : Fin 1) launch0 defs₀ Variants.none
    (fun c => (dats m 0 c).toRForget forgets) T m ρ main
    (hbody := fun c => (body_obligation m c).toRForget)
    (hshare := fun c => ((dats m 0 c).toRForget forgets).share_full fun _ => rfl)
    (howed := fun _ _ => rfl) (V₀ := Gen.V0 m) (opss := [hostOps1]) Gen.sfx_sub Gen.sfx_fresh Gen.sfx_keeps sfx_writes
    (hmain := Gen.hmain m Variants.none) (hA := A_eq m) (hΦ := fun _ _ => rfl)

/-- The frame: the program runs to the end from any memory, and the scores, the target ids and the rewards are at
    the end what they were at the start. Each is an input array of the pipeline, so the run's post gives it at the
    contents the region found, which are the initial ones (no host operation precedes the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Pipeline.RDat.FramePostR.arr_in h c 0 rfl).trans ((A_eq m c 0).trans (Gen.V_main_arg0 m c)),
      (Pipeline.RDat.FramePostR.arr_in h c 1 rfl).trans ((A_eq m c 1).trans (Gen.V_main_arg1 m c)),
      (Pipeline.RDat.FramePostR.arr_in h c 2 rfl).trans ((A_eq m c 2).trans (Gen.V_main_arg2 m c))⟩) (run_main m ρ)

end Cert.Kernel.Body

end
-- ==== Proof.IdealPoints.lean ====
/-
  The two branch conditions of the policy-gradient-loss kernel body as predicates of the grid point, and where they
  hold: a point of the 16 x 50 grid is (batch tile, vocabulary tile); the running per-row sums are reset at vocabulary
  tile 0 and the weighted row sum is written out at vocabulary tile 49. Also: which points leave the output window
  untouched, the staging memrefs the body is called with, and the kernel's own accumulator buffer as a memref.
-/
import proofs.«404340_j11991548690975_1_alg».proof.Proof.Gen.KernelIdeal.Frame
import proofs.«404340_j11991548690975_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

/-- "This is vocabulary tile 0": the condition under which the body zeroes the running sums. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 50 = 0 :=
  (by decide +kernel : ∀ t : Fin grid0.N, condFirst (grid0.coords t) ↔ t.val % 50 = 0)

/-- "This is vocabulary tile 49", the last: the condition under which the body writes the weighted row sums. -/
abbrev condLast (i : grid0.Coords) : Prop := k0_cond2 i = 1#1
theorem hcondLast : ∀ t : Fin cfg0.N, condLast (grid0.coords t) ↔ t.val % 50 = 49 :=
  (by decide +kernel : ∀ t : Fin grid0.N, condLast (grid0.coords t) ↔ t.val % 50 = 49)

/-- The three input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle away from the last vocabulary tile, and is not written back there. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel

/-- Each window's current staging memref at point `t`, and its wholeness. -/
abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x20 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x20 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1 .f32 := win0_3.stage (cfg0.slots t 3)
abbrev hs3 (t : Fin cfg0.N) : (ms3 t).IsWhole := hstage0_3 ((cfg0.slots t 3).cast nbuf0_3)
/-- The running sums' buffer (256 rows by 20 positions), the kernel's own. -/
abbrev accM : Memref sig .tc .vmem S256x20 .f32 := Memref.whole cc0_scratch0
abbrev accV : View sig .tc .vmem S256x20 .f32 := (accM).view
/-- One staging buffer of the output window, through which its contents are stated. -/
abbrev outV : View sig .tc .vmem S256x1 .f32 := (Memref.whole cc0_stg3_0 : Memref sig .tc .vmem S256x1 .f32).view

/-- What the region lends the body besides the windows: the running sums' buffer at some contents, and the generator
    register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.IdealRunMid.lean ====
/-
  The kernel body at a vocabulary tile that is neither the first nor the last of its row of the grid: it reads the tile
  of scores, the tile of target ids and, position by position, the running sums' column, and stores each column back
  with the tile's contribution added. The result is recorded as the list of stores the running sums' buffer ends with.
-/
import proofs.«404340_j11991548690975_1_alg».proof.Proof.IdealPoints

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the running sums' buffer (last first) at a middle tile, with the proof that from the
    five buffers at their contents the body runs to the continuation holding the four windows' buffers unchanged and
    the running sums' buffer with those stores made. -/
noncomputable def runMid (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : ¬condLast i)
    (x0 : Vec F S256x1024 .f32) (x1 : Vec F S256x20 .i32) (xs : Vec F S256x20 .f32) :
    { LS : List (View.Piece (Elt F) S256x20 .f32) //
      ∀ (x2 : Vec F S256x20 .f32) (x3 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, fun x2 x3 E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Body

end
-- ==== Proof.IdealRunFirst.lean ====
/-
  The kernel body at vocabulary tile 0 of a row of the grid: it first zeroes the running sums' buffer (whatever it
  held), then adds the tile's contribution to each position's column as at every tile.
-/
import proofs.«404340_j11991548690975_1_alg».proof.Proof.IdealRunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the running sums' buffer (last first) at the first tile of a row, with the proof that
    from the five buffers — the running sums' at anything — the body runs to the continuation holding the four
    windows' buffers unchanged and the running sums' buffer with those stores made. -/
noncomputable def runFirst (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : condFirst i) (hc2 : ¬condLast i)
    (x0 : Vec F S256x1024 .f32) (x1 : Vec F S256x20 .i32) :
    { LS : List (View.Piece (Elt F) S256x20 .f32) //
      ∀ (x2 : Vec F S256x20 .f32) (x3 : Vec F S256x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, fun x2 x3 E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Body

end
-- ==== Proof.IdealRunLast.lean ====
/-
  The kernel body at vocabulary tile 49, the last of a row of the grid: after adding the tile's contribution to each
  position's column of the running sums it reads the sums and the tile of rewards and stores, row by row, the sum over
  the 20 positions of their products into the output window's buffer.
-/
import proofs.«404340_j11991548690975_1_alg».proof.Proof.IdealRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the output window's buffer and in the running sums' buffer (last first) at the last
    tile of a row, with the proof that from the five buffers — the output's at anything — the body runs to the
    continuation holding the three input windows' buffers unchanged and the other two with those stores made. -/
noncomputable def runLast (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : condLast i)
    (x0 : Vec F S256x1024 .f32) (x1 : Vec F S256x20 .i32) (x2 : Vec F S256x20 .f32) (xs : Vec F S256x20 .f32) :
    Σ' (LO : List (View.Piece (Elt F) S256x1 .f32)), { LS : List (View.Piece (Elt F) S256x20 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__pg_loss_kernel i arg2 harg2 arg3 harg3 arg4 harg4 arg5 harg5 arg6 harg6) K } := by
  refine ⟨?_, ?_, fun E K => ?run⟩
  case run =>
    simp only [cc0__pg_loss_kernel_eq_skeleton]; unfold cc0__pg_loss_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.IdealStep.lean ====
/-
  One vocabulary tile's effect on the running sums, as a function: entry (b, s) of the 256 x 20 buffer becomes its old
  value plus the sum over the tile's 1024 lanes of [target id of (b, s) equals the lane's vocabulary id] times the
  tile's score at (b, lane). The body makes it column by column; here the 20 column stores are shown to add up to
  that one function of the buffer index.
-/
import proofs.«404340_j11991548690975_1_alg».proof.Proof.IdealRunLast
import Idealize.ShloMosaic.Lib.Pipeline.Value
import Idealize.ShloMosaic.Lib.Pipeline.CanonAppend
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable {F : FTy → Type} [FloatOps F]

/-- Column `s` of a 256 x 20 array, as a 256 x 1 array. -/
def colOf {α : Type} (x : S256x20.Idx → α) (s : Fin 20) : S256x1.Idx → α := fun q => x (ix2 (q 0) s)

/-- The running sums after one tile: at (b, s) the column update of column `s` read at row `b`. -/
def stepAcc (i : grid0.Coords) (x0 : Vec F S256x1024 .f32) (x1 : Vec F S256x20 .i32) (xs : Vec F S256x20 .f32) : Vec F S256x20 .f32 :=
  fun y => k0_pay7 (k0_pay3 i) x0 (colOf x1 (y 1)) (colOf xs (y 1)) (ix2 (y 0) 0)

/-- The 20 column stores of one tile, last first. -/
def colPieces (i : grid0.Coords) (x0 : Vec F S256x1024 .f32) (x1 : Vec F S256x20 .i32) (xs : Vec F S256x20 .f32) :
    List (View.Piece (Elt F) S256x20 .f32) :=
  [
    ⟨Rect.unit (s := S256x20) ![0, 19] S256x1.size inb_S256x20_S256x1_0_19, k0_pay7 (k0_pay3 i) x0 (extractStridedSlice S256x1 ![0, 19] x1 slices_S256x20_o0_19_S256x1) (View.ld xs (Rect.unit (s := S256x20) ![0, 19] S256x1.size inb_S256x20_S256x1_0_19))⟩,
    ⟨Rect.unit (s := S256x20) ![0, 18] S256x1.size inb_S256x20_S256x1_0_18, k0_pay7 (k0_pay3 i) x0 (extractStridedSlice S256x1 ![0, 18] x1 slices_S256x20_o0_18_S256x1) (View.ld xs (Rect.unit (s := S256x20) ![0, 18] S256x1.size inb_S256x20_S256x1_0_18))⟩,
    ⟨Rect.unit (s := S256x20) ![0, 17] S256x1.size inb_S256x20_S256x1_0_17, k0_pay7 (k0_pay3 i) x0 (extractStridedSlice S256x1 ![0, 17] x1 slices_S256x20_o0_17_S256x1) (View.ld xs (Rect.unit (s := S256x20) ![0, 17] S256x1.size inb_S256x20_S256x1_0_17))⟩,
    ⟨Rect.unit (s := S256x20) ![0, 16] S256x1.size inb_S256x20_S256x1_0_16, k0_pay7 (k0_pay3 i) x0 (extractStridedSlice S256x1 ![0, 16] x1 slices_S256x20_o0_16_S256x1) (View.ld xs (Rect.unit (s := S256x20) ![0, 16] S256x1.size inb_S256x20_S256x1_0_16))⟩,
    ⟨Rect.unit (s := S256x20) ![0, 15] S256x1.size inb_S256x20_S256x1_0_15, k0_pay7 (k0_pay3 i) x0 (extractStridedSlice S256x1 ![0, 15] x1 slices_S256x20_o0_15_S256x1) (View.ld xs (Rect.unit (s := S256x20) ![0, 15] S256x1.size inb_S256x20_S256x1_0_15))⟩,
    ⟨Rect.unit (s := S256x20) ![0, 14] S256x1.size inb_S256x20_S256x1_0_14, k0_pay7 (k0_pay3 i) x0 (extractStridedSlice S256x1 ![0, 14] x1 slices_S256x20_o0_14_S256x1) (View.ld xs (Rect.unit (s := S256x20) ![0, 14] S256x1.size inb_S256x20_S256x1_0_14))⟩,
    ⟨Rect.unit (s := S256x20) ![0, 13] S256x1.size inb_S256x20_S256x1_0_13, k0_pay7 (k0_pay3 i) x0 (extractStridedSlice S256x1 ![0, 13] x1 slices_S256x20_o0_13_S256x1) (View.ld xs (Rect.unit (s := S256x20) ![0, 13] S256x1.size inb_S256x20_S256x1_0_13))⟩,
    ⟨Rect.unit (s := S256x20) ![0, 12] S256x1.size inb_S256x20_S256x1_0_12, k0_pay7 (k0_pay3 i) x0 (extractStridedSlice S256x1 ![0, 12] x1 slices_S256x20_o0_12_S256x1) (View.ld xs (Rect.unit (s := S256x20) ![0, 12] S256x1.size inb_S256x20_S256x1_0_12))⟩,
    ⟨Rect.unit (s := S256x20) ![0, 11] S256x1.size inb_S256x20_S256x1_0_11, k0_pay7 (k0_pay3 i) x0 (extractStridedSlice S256x1 ![0, 11] x1 slices_S256x20_o0_11_S256x1) (View.ld xs (Rect.unit (s := S256x20) ![0, 11] S256x1.size inb_S256x20_S256x1_0_11))⟩,
    ⟨Rect.unit (s := S256x20) ![0, 10] S256x1.size inb_S256x20_S256x1_0_10, k0_pay7 (k0_pay3 i) x0 (extractStridedSlice S256x1 ![0, 10] x1 slices_S256x20_o0_10_S256x1) (View.ld xs (Rect.unit (s := S256x20) ![0, 10] S256x1.size inb_S256x20_S256x1_0_10))⟩,
    ⟨Rect.unit (s := S256x20) ![0, 9] S256x1.size inb_S256x20_S256x1_0_9, k0_pay7 (k0_pay3 i) x0 (extractStridedSlice S256x1 ![0, 9] x1 slices_S256x20_o0_9_S256x1) (View.ld xs (Rect.unit (s := S256x20) ![0, 9] S256x1.size inb_S256x20_S256x1_0_9))⟩,
    ⟨Rect.unit (s := S256x20) ![0, 8] S256x1.size inb_S256x20_S256x1_0_8, k0_pay7 (k0_pay3 i) x0 (extractStridedSlice S256x1 ![0, 8] x1 slices_S256x20_o0_8_S256x1) (View.ld xs (Rect.unit (s := S256x20) ![0, 8] S256x1.size inb_S256x20_S256x1_0_8))⟩,
    ⟨Rect.unit (s := S256x20) ![0, 7] S256x1.size inb_S256x20_S256x1_0_7, k0_pay7 (k0_pay3 i) x0 (extractStridedSlice S256x1 ![0, 7] x1 slices_S256x20_o0_7_S256x1) (View.ld xs (Rect.unit (s := S256x20) ![0, 7] S256x1.size inb_S256x20_S256x1_0_7))⟩,
    ⟨Rect.unit (s := S256x20) ![0, 6] S256x1.size inb_S256x20_S256x1_0_6, k0_pay7 (k0_pay3 i) x0 (extractStridedSlice S256x1 ![0, 6] x1 slices_S256x20_o0_6_S256x1) (View.ld xs (Rect.unit (s := S256x20) ![0, 6] S256x1.size inb_S256x20_S256x1_0_6))⟩,
    ⟨Rect.unit (s := S256x20) ![0, 5] S256x1.size inb_S256x20_S256x1_0_5, k0_pay7 (k0_pay3 i) x0 (extractStridedSlice S256x1 ![0, 5] x1 slices_S256x20_o0_5_S256x1) (View.ld xs (Rect.unit (s := S256x20) ![0, 5] S256x1.size inb_S256x20_S256x1_0_5))⟩,
    ⟨Rect.unit (s := S256x20) ![0, 4] S256x1.size inb_S256x20_S256x1_0_4, k0_pay7 (k0_pay3 i) x0 (extractStridedSlice S256x1 ![0, 4] x1 slices_S256x20_o0_4_S256x1) (View.ld xs (Rect.unit (s := S256x20) ![0, 4] S256x1.size inb_S256x20_S256x1_0_4))⟩,
    ⟨Rect.unit (s := S256x20) ![0, 3] S256x1.size inb_S256x20_S256x1_0_3, k0_pay7 (k0_pay3 i) x0 (extractStridedSlice S256x1 ![0, 3] x1 slices_S256x20_o0_3_S256x1) (View.ld xs (Rect.unit (s := S256x20) ![0, 3] S256x1.size inb_S256x20_S256x1_0_3))⟩,
    ⟨Rect.unit (s := S256x20) ![0, 2] S256x1.size inb_S256x20_S256x1_0_2, k0_pay7 (k0_pay3 i) x0 (extractStridedSlice S256x1 ![0, 2] x1 slices_S256x20_o0_2_S256x1) (View.ld xs (Rect.unit (s := S256x20) ![0, 2] S256x1.size inb_S256x20_S256x1_0_2))⟩,
    ⟨Rect.unit (s := S256x20) ![0, 1] S256x1.size inb_S256x20_S256x1_0_1, k0_pay7 (k0_pay3 i) x0 (extractStridedSlice S256x1 ![0, 1] x1 slices_S256x20_o0_1_S256x1) (View.ld xs (Rect.unit (s := S256x20) ![0, 1] S256x1.size inb_S256x20_S256x1_0_1))⟩,
    ⟨Rect.unit (s := S256x20) ![0, 0] S256x1.size inb_S256x20_S256x1_0_0, k0_pay7 (k0_pay3 i) x0 (extractStridedSlice S256x1 ![0, 0] x1 slices_S256x20_o0_0_S256x1) (View.ld xs (Rect.unit (s := S256x20) ![0, 0] S256x1.size inb_S256x20_S256x1_0_0))⟩ ]

/-- A column store's payload is the step function on the column's entries. -/
theorem piece_ok (s : ℕ) (hs : s < 20) (inb : ∀ a, (![0, s] : Fin 2 → ℕ) a + S256x1.size a ≤ S256x20.size a)
    (sl : S256x20.Slices ![0, s] S256x1) (i : grid0.Coords) (x0 : Vec F S256x1024 .f32) (x1 : Vec F S256x20 .i32) (xs : Vec F S256x20 .f32)
    (x : (Rect.unit (s := S256x20) ![0, s] S256x1.size inb).shape.Idx) :
    k0_pay7 (k0_pay3 i) x0 (extractStridedSlice S256x1 ![0, s] x1 sl) (View.ld xs (Rect.unit (s := S256x20) ![0, s] S256x1.size inb)) x
      = stepAcc i x0 x1 xs ((Rect.unit (s := S256x20) ![0, s] S256x1.size inb).emb x) := by
  have h1 : (x 1).val = 0 := by have := (x 1).isLt; change (x 1).val < 1 at this; omega
  have e1 : ((Rect.unit (s := S256x20) ![0, s] S256x1.size inb).emb x) 1 = (⟨s, hs⟩ : Fin 20) := Fin.ext (by
    show s + 1 * (x 1).val = s; omega)
  have e0 : ((Rect.unit (s := S256x20) ![0, s] S256x1.size inb).emb x) 0 = x 0 := Fin.ext (by
    show 0 + 1 * (x 0).val = (x 0).val; omega)
  have ex : x = ix2 (x 0) 0 := funext fun a => match a with
    | ⟨0, _⟩ => rfl
    | ⟨1, _⟩ => Fin.ext h1
  have es : extractStridedSlice S256x1 ![0, s] x1 sl = colOf x1 ⟨s, hs⟩ := funext fun q => by
    have hq : (q 1).val = 0 := by have := (q 1).isLt; change (q 1).val < 1 at this; omega
    unfold extractStridedSlice colOf; congr 1; funext a
    match a with
    | ⟨0, _⟩ => exact Fin.ext (by show 0 + (q 0).val = (q 0).val; omega)
    | ⟨1, _⟩ => exact Fin.ext (by show s + (q 1).val = s; omega)
  have eo : View.ld xs (Rect.unit (s := S256x20) ![0, s] S256x1.size inb) = colOf xs ⟨s, hs⟩ := funext fun q => by
    have hq : (q 1).val = 0 := by have := (q 1).isLt; change (q 1).val < 1 at this; omega
    unfold colOf; show xs _ = xs _; congr 1; funext a
    match a with
    | ⟨0, _⟩ => exact Fin.ext (by show 0 + 1 * (q 0).val = (q 0).val; omega)
    | ⟨1, _⟩ => exact Fin.ext (by show s + 1 * (q 1).val = s; omega)
  unfold stepAcc
  rw [e1, e0, es, eo]
  exact congrArg _ ex

theorem hz2 : (![0, 0] : Fin 2 → ℕ) = fun _ => 0 := funext fun a => by fin_cases a <;> rfl

/-- The 20 columns tile the buffer. -/
theorem cover_colPieces (i : grid0.Coords) (x0 : Vec F S256x1024 .f32) (x1 : Vec F S256x20 .i32) (xs : Vec F S256x20 .f32) (y : S256x20.Idx) :
    ∃ p ∈ colPieces i x0 x1 xs, y ∈ p.1.set :=
  View.cover_of_tiledL (colPieces i x0 x1 xs) S256x1.size (by sl_kernel_rfl) y

/-- The 20 column stores leave the step function, -/
theorem canon_colPieces (i : grid0.Coords) (x0 : Vec F S256x1024 .f32) (x1 : Vec F S256x20 .i32) (xs : Vec F S256x20 .f32) :
    View.canon (colPieces i x0 x1 xs) = stepAcc i x0 x1 xs := by
  funext y
  refine View.canon_apply_of_pieces (stepAcc i x0 x1 xs) (colPieces i x0 x1 xs) ?_ y (cover_colPieces i x0 x1 xs y)
  intro p hp
  simp only [colPieces, List.mem_cons, List.mem_nil_iff, or_false] at hp
  rcases hp with rfl | rfl | rfl | rfl | rfl | rfl | rfl | rfl | rfl | rfl | rfl | rfl | rfl | rfl | rfl | rfl | rfl | rfl | rfl | rfl
  all_goals (intro x; exact piece_ok _ (by decide) _ _ i x0 x1 xs x)

/-- whatever was stored before them. -/
theorem canon_colPieces_append (i : grid0.Coords) (x0 : Vec F S256x1024 .f32) (x1 : Vec F S256x20 .i32) (xs : Vec F S256x20 .f32)
    (L' : List (View.Piece (Elt F) S256x20 .f32)) :
    View.canon (colPieces i x0 x1 xs ++ L') = stepAcc i x0 x1 xs := by
  funext y
  refine View.canon_append_of_pieces (stepAcc i x0 x1 xs) L' (colPieces i x0 x1 xs) ?_ y (cover_colPieces i x0 x1 xs y)
  intro p hp
  simp only [colPieces, List.mem_cons, List.mem_nil_iff, or_false] at hp
  rcases hp with rfl | rfl | rfl | rfl | rfl | rfl | rfl | rfl | rfl | rfl | rfl | rfl | rfl | rfl | rfl | rfl | rfl | rfl | rfl | rfl
  all_goals (intro x; exact piece_ok _ (by decide) _ _ i x0 x1 xs x)

/-- A whole-buffer read after the 20 column stores reads the step function. -/
theorem readCov_colPieces {sp : Space} (v : View sig .tc sp S256x20 .f32) (i : grid0.Coords) (x0 : Vec F S256x1024 .f32) (x1 : Vec F S256x20 .i32) (xs : Vec F S256x20 .f32)
    (inb : ∀ a, (![0, 0] : Fin 2 → ℕ) a + S256x20.size a ≤ S256x20.size a) :
    v.readCov (colPieces i x0 x1 xs) (Rect.unit (s := S256x20) ![0, 0] S256x20.size inb).toLoadRect = stepAcc i x0 x1 xs := by
  rw [View.readCov_eq_canon', canon_colPieces]
  exact View.ld_unit_zero (S := S256x20) hz2 inb (stepAcc i x0 x1 xs)

/-- A read of one column skips a later store to another column. -/
theorem readCov_col_skip {sp : Space} (v : View sig .tc sp S256x20 .f32) (a b : ℕ)
    (inba : ∀ k, (![0, a] : Fin 2 → ℕ) k + S256x1.size k ≤ S256x20.size k) (inbb : ∀ k, (![0, b] : Fin 2 → ℕ) k + S256x1.size k ≤ S256x20.size k)
    (w : (Rect.unit (s := S256x20) ![0, a] S256x1.size inba).shape.Idx → Elt F .f32) (L : List (View.Piece (Elt F) S256x20 .f32)) (hab : a ≠ b) :
    v.readCov (⟨Rect.unit (s := S256x20) ![0, a] S256x1.size inba, w⟩ :: L) (Rect.unit (s := S256x20) ![0, b] S256x1.size inbb).toLoadRect
      = v.readCov L (Rect.unit (s := S256x20) ![0, b] S256x1.size inbb).toLoadRect := by
  refine View.readCov_cons_of_disjoint v _ L _ (Finset.disjoint_left.mpr fun y hy hy' => ?_)
  change y ∈ (Rect.unit (s := S256x20) ![0, a] S256x1.size inba).set at hy
  change y ∈ (Rect.unit (s := S256x20) ![0, b] S256x1.size inbb).set at hy'
  rw [Rect.mem_set_unit] at hy hy'
  have h1 := hy 1
  have h2 := hy' 1
  change a ≤ (y 1 : ℕ) ∧ (y 1 : ℕ) < a + 1 at h1
  change b ≤ (y 1 : ℕ) ∧ (y 1 : ℕ) < b + 1 at h2
  omega

/-- A read of one column after ONE whole-buffer store reads the stored value's column. -/
theorem readCov_col_whole {sp : Space} (v : View sig .tc sp S256x20 .f32) (b : ℕ)
    (inb0 : ∀ k, (![0, 0] : Fin 2 → ℕ) k + S256x20.size k ≤ S256x20.size k) (inbb : ∀ k, (![0, b] : Fin 2 → ℕ) k + S256x1.size k ≤ S256x20.size k)
    (w : S256x20.Idx → Elt F .f32) :
    v.readCov [(⟨Rect.unit (s := S256x20) ![0, 0] S256x20.size inb0, w⟩ : View.Piece (Elt F) S256x20 .f32)] (Rect.unit (s := S256x20) ![0, b] S256x1.size inbb).toLoadRect
      = View.ld w (Rect.unit (s := S256x20) ![0, b] S256x1.size inbb) := by
  rw [View.readCov_eq_canon', View.canon_unit_zero hz2]

/-- At a middle tile the body's stores are the 20 column stores over what the buffer held. -/
theorem mid_pieces (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : ¬condLast i)
    (x0 : Vec F S256x1024 .f32) (x1 : Vec F S256x20 .i32) (xs : Vec F S256x20 .f32) :
    (runMid c i arg2 harg2 arg3 harg3 arg4 harg4 arg5 harg5 arg6 harg6 hc0 hc2 x0 x1 xs).1 = colPieces i x0 x1 xs := by
  unfold runMid
  dsimp only
  sl_unfold_words
  simp only [View.readAt_eq_ld, harg2.read_unread, harg3.read_unread, harg6.read_unread, View.ld_unit_zero (S := S256x1024) hz2, View.ld_unit_zero (S := S256x20) hz2]
  rfl

/-- At the last tile of a row likewise, -/
theorem last_pieces_acc (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : condLast i)
    (x0 : Vec F S256x1024 .f32) (x1 : Vec F S256x20 .i32) (x2 : Vec F S256x20 .f32) (xs : Vec F S256x20 .f32) :
    (runLast c i arg2 harg2 arg3 harg3 arg4 harg4 arg5 harg5 arg6 harg6 hc0 hc2 x0 x1 x2 xs).2.1 = colPieces i x0 x1 xs := by
  unfold runLast
  dsimp only
  sl_unfold_words
  simp only [View.readAt_eq_ld, harg2.read_unread, harg3.read_unread, harg4.read_unread, harg6.read_unread, View.ld_unit_zero (S := S256x1024) hz2, View.ld_unit_zero (S := S256x20) hz2]
  rfl

/-- and the output's one store is the weighted row sum of the updated running sums and the rewards. -/
theorem last_pieces_out (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : ¬condFirst i) (hc2 : condLast i)
    (x0 : Vec F S256x1024 .f32) (x1 : Vec F S256x20 .i32) (x2 : Vec F S256x20 .f32) (xs : Vec F S256x20 .f32) :
    (runLast c i arg2 harg2 arg3 harg3 arg4 harg4 arg5 harg5 arg6 harg6 hc0 hc2 x0 x1 x2 xs).1
      = [⟨Rect.unit (s := S256x1) ![0, 0] S256x1.size inb_S256x1_S256x1_0_0, k0_pay1 (stepAcc i x0 x1 xs) x2⟩] := by
  unfold runLast
  dsimp only
  sl_unfold_words
  simp only [View.readAt_eq_ld, harg2.read_unread, harg3.read_unread, harg4.read_unread, harg6.read_unread, View.ld_unit_zero (S := S256x1024) hz2, View.ld_unit_zero (S := S256x20) hz2]
  exact congrArg (fun z => [(⟨Rect.unit (s := S256x1) ![0, 0] S256x1.size inb_S256x1_S256x1_0_0, k0_pay1 z x2⟩ : View.Piece (Elt F) S256x1 .f32)])
    (readCov_colPieces arg6.view i x0 x1 xs inb_S256x20_S256x20_0_0)

end Cert.KernelIdeal.Body

end
-- ==== Proof.Spec.lean ====
/-
  What both programs compute, as one expression over the extended reals. For scores `pred` (4096 rows by 50257
  vocabulary entries), target ids `tgt` (4096 rows by 20 positions) and rewards `rew` (4096 by 20), the
  policy-gradient loss is  -( sum over rows r and positions s of pred[r, tgt[r, s]] * rew[r, s] ) / 4096 .
  The sum starts from the value of the zero word and the divisor is the value of the word both programs carry for
  4096.0; neither word is ever evaluated here.
-/
import Idealize.ShloMosaic.PureOps.Ideal
import Idealize.ShloMosaic.PureOps.Ideal.Laws
import Idealize.ShloMosaic.Lib.ValueIdx

noncomputable section

open scoped BigOperators

namespace Cert.PgLoss

open Idealize.ShloMosaic Idealize.ShloMosaic.ValueIdx

/-- Scores: 4096 rows by 50257 vocabulary entries. -/
abbrev SPred : Shape := ⟨2, ![4096, 50257]⟩
/-- Target ids and rewards: 4096 rows by 20 positions. -/
abbrev SPos : Shape := ⟨2, ![4096, 20]⟩

/-- The score a (row, position) pair selects: the row's score at the position's target id. The id is read as an
    unsigned word and reduced modulo the vocabulary size, which leaves an id that is in range unchanged. -/
def picked (pred : SPred.Idx → EReal) (tgt : SPos.Idx → BitVec 32) (j : SPos.Idx) : EReal :=
  pred (ix2 (j 0) ⟨(tgt j).toNat % 50257, Nat.mod_lt _ (by decide)⟩)

/-- For an id in range, the selected score is the score at the id. -/
theorem picked_eq (pred : SPred.Idx → EReal) (tgt : SPos.Idx → BitVec 32) (j : SPos.Idx) (h : (tgt j).toNat < 50257) :
    picked pred tgt j = pred (ix2 (j 0) ⟨(tgt j).toNat, h⟩) := by
  unfold picked; congr 2; exact Fin.ext (Nat.mod_eq_of_lt h)

/-- The sum over all rows and positions of selected score times reward, from the zero word's value. -/
def total (pred : SPred.Idx → EReal) (tgt : SPos.Idx → BitVec 32) (rew : SPos.Idx → EReal) : EReal :=
  Ideal.ofBits .f32 0x00000000#32 + ∑ j : SPos.Idx, picked pred tgt j * rew j

/-- The loss: the negated total divided by the value of the word for 4096.0. -/
def loss (pred : SPred.Idx → EReal) (tgt : SPos.Idx → BitVec 32) (rew : SPos.Idx → EReal) : EReal :=
  Ideal.div (-(total pred tgt rew)) (Ideal.ofBits .f32 0x45800000#32)

/-- The total, row by row: each row contributes the sum over its 20 positions. -/
theorem total_rows (pred : SPred.Idx → EReal) (tgt : SPos.Idx → BitVec 32) (rew : SPos.Idx → EReal) :
    total pred tgt rew
      = Ideal.ofBits .f32 0x00000000#32 + ∑ r : Fin 4096, ∑ s : Fin 20, picked pred tgt (ix2 r s) * rew (ix2 r s) := by
  unfold total; rw [sum_idx2]

end Cert.PgLoss

end
-- ==== Proof.IdealAcc.lean ====
/-
  What the running sums and the output block hold, point by point, over the extended reals. A point n = 50 * bi + vi of
  the 16 x 50 grid works on rows 256 * bi .. 256 * bi + 255 and vocabulary ids 1024 * vi .. 1024 * vi + 1023. After it,
  entry (b, s) of the running sums is the score the row's position s selects if the selected id lies below
  1024 * (vi + 1), and zero otherwise: the tiles seen so far either contain the selected id or they do not. After the
  last tile of the row every id has been seen, and the output block's row b is the sum over the 20 positions of selected
  score times reward. The proof data of the pipeline name exactly these.
-/
import proofs.«404340_j11991548690975_1_alg».proof.Proof.IdealStep
import proofs.«404340_j11991548690975_1_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ)

/-- The three argument arrays as the region finds them, at their literal types. -/
abbrev predA (c : Dev nD) : Vec Ideal S4096x50257 .f32 := V m c main_arg0
abbrev tgtA (c : Dev nD) : Vec Ideal S4096x20 .i32 := V m c main_arg1
abbrev rewA (c : Dev nD) : Vec Ideal S4096x20 .f32 := V m c main_arg2

/-- The array row of block row `b` at point `n` (reduced modulo 4096, which changes nothing for a point of the grid). -/
def rowOf (n : ℕ) (b : Fin 256) : Fin 4096 := ⟨(256 * (n / 50) + b.val) % 4096, Nat.mod_lt _ (by decide)⟩

/-- The running sums after point `n`. -/
def accAt (c : Dev nD) (n : ℕ) : Vec Ideal S256x20 .f32 := fun y =>
  if (tgtA m c (ix2 (rowOf n (y 0)) (y 1))).toNat < 1024 * (n % 50 + 1) then
    Cert.PgLoss.picked (predA m c) (tgtA m c) (ix2 (rowOf n (y 0)) (y 1))
  else 0

/-- The output block after the last tile of a row. -/
def outAt (c : Dev nD) (n : ℕ) : Vec Ideal S256x1 .f32 := fun q =>
  ∑ s : Fin 20, Cert.PgLoss.picked (predA m c) (tgtA m c) (ix2 (rowOf n (q 0)) s) * rewA m c (ix2 (rowOf n (q 0)) s)

/-- The windows' blocks at a point, at their literal types: target ids, rewards, and the scores' staging buffer as a fetch
    leaves it — the block's part inside the array, `d` past the array's end. -/
abbrev tblk (c : Dev nD) (t : Fin cfg0.N) : Vec Ideal S256x20 .i32 := iblk m c 1 t
abbrev rblk (c : Dev nD) (t : Fin cfg0.N) : Vec Ideal S256x20 .f32 := iblk m c 2 t
abbrev pblk (c : Dev nD) (t : Fin cfg0.N) (d : S256x1024.Idx → Elt Ideal .f32) : Vec Ideal S256x1024 .f32 :=
  win0_0.fill (grid0.coords t) d (iblk m c 0 t)

/-- What the value of one tile's step has to be for the running sums to be `accAt` and the output `outAt`: at the first
    tile of a row from zeros, at a later tile from the sums the tile before left, whatever lies past the array's end in
    the scores' buffer; and at the last tile the weighted row sums. -/
structure StepFacts : Prop where
  first : ∀ (c : Dev nD) (t : Fin cfg0.N) (d : S256x1024.Idx → Elt Ideal .f32), t.val % 50 = 0 →
    stepAcc (grid0.coords t) (pblk m c t d) (tblk m c t) (k0_pay2 (F := Ideal)) = accAt m c t.val
  next : ∀ (c : Dev nD) (t : Fin cfg0.N) (d : S256x1024.Idx → Elt Ideal .f32), t.val % 50 ≠ 0 →
    stepAcc (grid0.coords t) (pblk m c t d) (tblk m c t) (accAt m c (t.val - 1)) = accAt m c t.val
  out : ∀ (c : Dev nD) (t : Fin cfg0.N), t.val % 50 = 49 →
    k0_pay1 (accAt m c t.val) (rblk m c t) = outAt m c t.val

/-- The region invariant before position `n`: before the first point whatever the region lends (the running sums' buffer
    at anything); afterwards that buffer at the sums the point before left, and the generator register. -/
def PhiS (c : Dev nD) : (n : ℕ) → sProp 𝕄
  | 0 => Pipeline.ΦA spec0 c
  | n + 1 => iprop(iprop(owns (c : Thread nD τ) accM fullShare (accAt m c n)) ∗ (∃ r, prngReg c r))

/-- The proof data of the pipeline on core `c`: the arrays as the region finds them; after the body at point `t` the
    scores' buffer at its block (zero past the array's end: only the part inside the array is ever asked), the target
    ids' and rewards' buffers at their blocks, the output's at `outAt`; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => pblk m c t (fun _ => (0 : EReal))
    | ⟨1, _⟩ => iblk m c 1 t
    | ⟨2, _⟩ => iblk m c 2 t
    | ⟨3, _⟩ => outAt m c t.val
  Φ t := PhiS m c t.val
  q _ := fullShare
  owed _ := 0

end Cert.KernelIdeal.Body

end
-- ==== Proof.IdealFirst.lean ====
/-
  The first tile of a row, store by store: after the zeroing store every column read finds zeros, so the 20 column
  stores are the column stores over the zero array, made after the zeroing store.
-/
import proofs.«404340_j11991548690975_1_alg».proof.Proof.IdealStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable {F : FTy → Type} [FloatOps F]

/-- The zeroing store. -/
def resetPiece : View.Piece (Elt F) S256x20 .f32 := ⟨Rect.unit (s := S256x20) ![0, 0] S256x20.size inb_S256x20_S256x20_0_0, k0_pay2 (F := F)⟩

/-- The stores of the first tile once `k` columns are stored (last first). -/
def firstSfx (i : grid0.Coords) (x0 : Vec F S256x1024 .f32) (x1 : Vec F S256x20 .i32) (k : ℕ) : List (View.Piece (Elt F) S256x20 .f32) :=
  (colPieces i x0 x1 (k0_pay2 (F := F))).drop (20 - k) ++ [resetPiece]

variable (c : Dev nD) (i : grid0.Coords) (arg2 : Memref sig .tc .vmem S256x1024 .f32) (harg2 : arg2.IsWhole) (arg3 : Memref sig .tc .vmem S256x20 .i32) (harg3 : arg3.IsWhole) (arg6 : Memref sig .tc .vmem S256x20 .f32)
  (x0 : Vec F S256x1024 .f32) (x1 : Vec F S256x20 .i32)

theorem fv0 : runFirst.sl.v17 (F := F) c arg6 = View.ld (k0_pay2 (F := F)) (Rect.unit (s := S256x20) ![0, 0] S256x1.size inb_S256x20_S256x1_0_0) := by
  unfold runFirst.sl.v17 runFirst.sl.HS_1
  exact readCov_col_whole arg6.view 0 _ _ _

theorem fhs1 : runFirst.sl.HS_2 c i arg2 harg2 arg3 harg3 arg6 x0 x1 = firstSfx i x0 x1 1 := by
  unfold runFirst.sl.HS_2
  rw [fv0]
  sl_unfold_words
  simp only [View.readAt_eq_ld, harg2.read_unread, harg3.read_unread, View.ld_unit_zero (S := S256x1024) hz2, View.ld_unit_zero (S := S256x20) hz2]
  rfl

theorem fv1 : runFirst.sl.v31 c i arg2 harg2 arg3 harg3 arg6 x0 x1 = View.ld (k0_pay2 (F := F)) (Rect.unit (s := S256x20) ![0, 1] S256x1.size inb_S256x20_S256x1_0_1) := by
  unfold runFirst.sl.v31
  rw [fhs1 c i arg2 harg2 arg3 harg3 arg6 x0 x1]
  show arg6.view.readCov (_ :: [resetPiece]) _ = _
  iterate 1 rw [readCov_col_skip (hab := by decide)]
  exact readCov_col_whole arg6.view 1 _ _ _

theorem fhs2 : runFirst.sl.HS_3 c i arg2 harg2 arg3 harg3 arg6 x0 x1 = firstSfx i x0 x1 2 := by
  unfold runFirst.sl.HS_3
  rw [fv1 c i arg2 harg2 arg3 harg3 arg6 x0 x1, fhs1 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv2 : runFirst.sl.v45 c i arg2 harg2 arg3 harg3 arg6 x0 x1 = View.ld (k0_pay2 (F := F)) (Rect.unit (s := S256x20) ![0, 2] S256x1.size inb_S256x20_S256x1_0_2) := by
  unfold runFirst.sl.v45
  rw [fhs2 c i arg2 harg2 arg3 harg3 arg6 x0 x1]
  show arg6.view.readCov (_ :: _ :: [resetPiece]) _ = _
  iterate 2 rw [readCov_col_skip (hab := by decide)]
  exact readCov_col_whole arg6.view 2 _ _ _

theorem fhs3 : runFirst.sl.HS_4 c i arg2 harg2 arg3 harg3 arg6 x0 x1 = firstSfx i x0 x1 3 := by
  unfold runFirst.sl.HS_4
  rw [fv2 c i arg2 harg2 arg3 harg3 arg6 x0 x1, fhs2 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv3 : runFirst.sl.v59 c i arg2 harg2 arg3 harg3 arg6 x0 x1 = View.ld (k0_pay2 (F := F)) (Rect.unit (s := S256x20) ![0, 3] S256x1.size inb_S256x20_S256x1_0_3) := by
  unfold runFirst.sl.v59
  rw [fhs3 c i arg2 harg2 arg3 harg3 arg6 x0 x1]
  show arg6.view.readCov (_ :: _ :: _ :: [resetPiece]) _ = _
  iterate 3 rw [readCov_col_skip (hab := by decide)]
  exact readCov_col_whole arg6.view 3 _ _ _

theorem fhs4 : runFirst.sl.HS_5 c i arg2 harg2 arg3 harg3 arg6 x0 x1 = firstSfx i x0 x1 4 := by
  unfold runFirst.sl.HS_5
  rw [fv3 c i arg2 harg2 arg3 harg3 arg6 x0 x1, fhs3 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv4 : runFirst.sl.v73 c i arg2 harg2 arg3 harg3 arg6 x0 x1 = View.ld (k0_pay2 (F := F)) (Rect.unit (s := S256x20) ![0, 4] S256x1.size inb_S256x20_S256x1_0_4) := by
  unfold runFirst.sl.v73
  rw [fhs4 c i arg2 harg2 arg3 harg3 arg6 x0 x1]
  show arg6.view.readCov (_ :: _ :: _ :: _ :: [resetPiece]) _ = _
  iterate 4 rw [readCov_col_skip (hab := by decide)]
  exact readCov_col_whole arg6.view 4 _ _ _

theorem fhs5 : runFirst.sl.HS_6 c i arg2 harg2 arg3 harg3 arg6 x0 x1 = firstSfx i x0 x1 5 := by
  unfold runFirst.sl.HS_6
  rw [fv4 c i arg2 harg2 arg3 harg3 arg6 x0 x1, fhs4 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv5 : runFirst.sl.v87 c i arg2 harg2 arg3 harg3 arg6 x0 x1 = View.ld (k0_pay2 (F := F)) (Rect.unit (s := S256x20) ![0, 5] S256x1.size inb_S256x20_S256x1_0_5) := by
  unfold runFirst.sl.v87
  rw [fhs5 c i arg2 harg2 arg3 harg3 arg6 x0 x1]
  show arg6.view.readCov (_ :: _ :: _ :: _ :: _ :: [resetPiece]) _ = _
  iterate 5 rw [readCov_col_skip (hab := by decide)]
  exact readCov_col_whole arg6.view 5 _ _ _

theorem fhs6 : runFirst.sl.HS_7 c i arg2 harg2 arg3 harg3 arg6 x0 x1 = firstSfx i x0 x1 6 := by
  unfold runFirst.sl.HS_7
  rw [fv5 c i arg2 harg2 arg3 harg3 arg6 x0 x1, fhs5 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv6 : runFirst.sl.v101 c i arg2 harg2 arg3 harg3 arg6 x0 x1 = View.ld (k0_pay2 (F := F)) (Rect.unit (s := S256x20) ![0, 6] S256x1.size inb_S256x20_S256x1_0_6) := by
  unfold runFirst.sl.v101
  rw [fhs6 c i arg2 harg2 arg3 harg3 arg6 x0 x1]
  show arg6.view.readCov (_ :: _ :: _ :: _ :: _ :: _ :: [resetPiece]) _ = _
  iterate 6 rw [readCov_col_skip (hab := by decide)]
  exact readCov_col_whole arg6.view 6 _ _ _

theorem fhs7 : runFirst.sl.HS_8 c i arg2 harg2 arg3 harg3 arg6 x0 x1 = firstSfx i x0 x1 7 := by
  unfold runFirst.sl.HS_8
  rw [fv6 c i arg2 harg2 arg3 harg3 arg6 x0 x1, fhs6 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv7 : runFirst.sl.v115 c i arg2 harg2 arg3 harg3 arg6 x0 x1 = View.ld (k0_pay2 (F := F)) (Rect.unit (s := S256x20) ![0, 7] S256x1.size inb_S256x20_S256x1_0_7) := by
  unfold runFirst.sl.v115
  rw [fhs7 c i arg2 harg2 arg3 harg3 arg6 x0 x1]
  show arg6.view.readCov (_ :: _ :: _ :: _ :: _ :: _ :: _ :: [resetPiece]) _ = _
  iterate 7 rw [readCov_col_skip (hab := by decide)]
  exact readCov_col_whole arg6.view 7 _ _ _

theorem fhs8 : runFirst.sl.HS_9 c i arg2 harg2 arg3 harg3 arg6 x0 x1 = firstSfx i x0 x1 8 := by
  unfold runFirst.sl.HS_9
  rw [fv7 c i arg2 harg2 arg3 harg3 arg6 x0 x1, fhs7 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv8 : runFirst.sl.v129 c i arg2 harg2 arg3 harg3 arg6 x0 x1 = View.ld (k0_pay2 (F := F)) (Rect.unit (s := S256x20) ![0, 8] S256x1.size inb_S256x20_S256x1_0_8) := by
  unfold runFirst.sl.v129
  rw [fhs8 c i arg2 harg2 arg3 harg3 arg6 x0 x1]
  show arg6.view.readCov (_ :: _ :: _ :: _ :: _ :: _ :: _ :: _ :: [resetPiece]) _ = _
  iterate 8 rw [readCov_col_skip (hab := by decide)]
  exact readCov_col_whole arg6.view 8 _ _ _

theorem fhs9 : runFirst.sl.HS_10 c i arg2 harg2 arg3 harg3 arg6 x0 x1 = firstSfx i x0 x1 9 := by
  unfold runFirst.sl.HS_10
  rw [fv8 c i arg2 harg2 arg3 harg3 arg6 x0 x1, fhs8 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv9 : runFirst.sl.v143 c i arg2 harg2 arg3 harg3 arg6 x0 x1 = View.ld (k0_pay2 (F := F)) (Rect.unit (s := S256x20) ![0, 9] S256x1.size inb_S256x20_S256x1_0_9) := by
  unfold runFirst.sl.v143
  rw [fhs9 c i arg2 harg2 arg3 harg3 arg6 x0 x1]
  show arg6.view.readCov (_ :: _ :: _ :: _ :: _ :: _ :: _ :: _ :: _ :: [resetPiece]) _ = _
  iterate 9 rw [readCov_col_skip (hab := by decide)]
  exact readCov_col_whole arg6.view 9 _ _ _

theorem fhs10 : runFirst.sl.HS_11 c i arg2 harg2 arg3 harg3 arg6 x0 x1 = firstSfx i x0 x1 10 := by
  unfold runFirst.sl.HS_11
  rw [fv9 c i arg2 harg2 arg3 harg3 arg6 x0 x1, fhs9 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv10 : runFirst.sl.v157 c i arg2 harg2 arg3 harg3 arg6 x0 x1 = View.ld (k0_pay2 (F := F)) (Rect.unit (s := S256x20) ![0, 10] S256x1.size inb_S256x20_S256x1_0_10) := by
  unfold runFirst.sl.v157
  rw [fhs10 c i arg2 harg2 arg3 harg3 arg6 x0 x1]
  show arg6.view.readCov (_ :: _ :: _ :: _ :: _ :: _ :: _ :: _ :: _ :: _ :: [resetPiece]) _ = _
  iterate 10 rw [readCov_col_skip (hab := by decide)]
  exact readCov_col_whole arg6.view 10 _ _ _

theorem fhs11 : runFirst.sl.HS_12 c i arg2 harg2 arg3 harg3 arg6 x0 x1 = firstSfx i x0 x1 11 := by
  unfold runFirst.sl.HS_12
  rw [fv10 c i arg2 harg2 arg3 harg3 arg6 x0 x1, fhs10 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv11 : runFirst.sl.v171 c i arg2 harg2 arg3 harg3 arg6 x0 x1 = View.ld (k0_pay2 (F := F)) (Rect.unit (s := S256x20) ![0, 11] S256x1.size inb_S256x20_S256x1_0_11) := by
  unfold runFirst.sl.v171
  rw [fhs11 c i arg2 harg2 arg3 harg3 arg6 x0 x1]
  show arg6.view.readCov (_ :: _ :: _ :: _ :: _ :: _ :: _ :: _ :: _ :: _ :: _ :: [resetPiece]) _ = _
  iterate 11 rw [readCov_col_skip (hab := by decide)]
  exact readCov_col_whole arg6.view 11 _ _ _

theorem fhs12 : runFirst.sl.HS_13 c i arg2 harg2 arg3 harg3 arg6 x0 x1 = firstSfx i x0 x1 12 := by
  unfold runFirst.sl.HS_13
  rw [fv11 c i arg2 harg2 arg3 harg3 arg6 x0 x1, fhs11 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv12 : runFirst.sl.v185 c i arg2 harg2 arg3 harg3 arg6 x0 x1 = View.ld (k0_pay2 (F := F)) (Rect.unit (s := S256x20) ![0, 12] S256x1.size inb_S256x20_S256x1_0_12) := by
  unfold runFirst.sl.v185
  rw [fhs12 c i arg2 harg2 arg3 harg3 arg6 x0 x1]
  show arg6.view.readCov (_ :: _ :: _ :: _ :: _ :: _ :: _ :: _ :: _ :: _ :: _ :: _ :: [resetPiece]) _ = _
  iterate 12 rw [readCov_col_skip (hab := by decide)]
  exact readCov_col_whole arg6.view 12 _ _ _

theorem fhs13 : runFirst.sl.HS_14 c i arg2 harg2 arg3 harg3 arg6 x0 x1 = firstSfx i x0 x1 13 := by
  unfold runFirst.sl.HS_14
  rw [fv12 c i arg2 harg2 arg3 harg3 arg6 x0 x1, fhs12 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv13 : runFirst.sl.v199 c i arg2 harg2 arg3 harg3 arg6 x0 x1 = View.ld (k0_pay2 (F := F)) (Rect.unit (s := S256x20) ![0, 13] S256x1.size inb_S256x20_S256x1_0_13) := by
  unfold runFirst.sl.v199
  rw [fhs13 c i arg2 harg2 arg3 harg3 arg6 x0 x1]
  show arg6.view.readCov (_ :: _ :: _ :: _ :: _ :: _ :: _ :: _ :: _ :: _ :: _ :: _ :: _ :: [resetPiece]) _ = _
  iterate 13 rw [readCov_col_skip (hab := by decide)]
  exact readCov_col_whole arg6.view 13 _ _ _

theorem fhs14 : runFirst.sl.HS_15 c i arg2 harg2 arg3 harg3 arg6 x0 x1 = firstSfx i x0 x1 14 := by
  unfold runFirst.sl.HS_15
  rw [fv13 c i arg2 harg2 arg3 harg3 arg6 x0 x1, fhs13 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv14 : runFirst.sl.v213 c i arg2 harg2 arg3 harg3 arg6 x0 x1 = View.ld (k0_pay2 (F := F)) (Rect.unit (s := S256x20) ![0, 14] S256x1.size inb_S256x20_S256x1_0_14) := by
  unfold runFirst.sl.v213
  rw [fhs14 c i arg2 harg2 arg3 harg3 arg6 x0 x1]
  show arg6.view.readCov (_ :: _ :: _ :: _ :: _ :: _ :: _ :: _ :: _ :: _ :: _ :: _ :: _ :: _ :: [resetPiece]) _ = _
  iterate 14 rw [readCov_col_skip (hab := by decide)]
  exact readCov_col_whole arg6.view 14 _ _ _

theorem fhs15 : runFirst.sl.HS_16 c i arg2 harg2 arg3 harg3 arg6 x0 x1 = firstSfx i x0 x1 15 := by
  unfold runFirst.sl.HS_16
  rw [fv14 c i arg2 harg2 arg3 harg3 arg6 x0 x1, fhs14 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv15 : runFirst.sl.v227 c i arg2 harg2 arg3 harg3 arg6 x0 x1 = View.ld (k0_pay2 (F := F)) (Rect.unit (s := S256x20) ![0, 15] S256x1.size inb_S256x20_S256x1_0_15) := by
  unfold runFirst.sl.v227
  rw [fhs15 c i arg2 harg2 arg3 harg3 arg6 x0 x1]
  show arg6.view.readCov (_ :: _ :: _ :: _ :: _ :: _ :: _ :: _ :: _ :: _ :: _ :: _ :: _ :: _ :: _ :: [resetPiece]) _ = _
  iterate 15 rw [readCov_col_skip (hab := by decide)]
  exact readCov_col_whole arg6.view 15 _ _ _

theorem fhs16 : runFirst.sl.HS_17 c i arg2 harg2 arg3 harg3 arg6 x0 x1 = firstSfx i x0 x1 16 := by
  unfold runFirst.sl.HS_17
  rw [fv15 c i arg2 harg2 arg3 harg3 arg6 x0 x1, fhs15 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv16 : runFirst.sl.v241 c i arg2 harg2 arg3 harg3 arg6 x0 x1 = View.ld (k0_pay2 (F := F)) (Rect.unit (s := S256x20) ![0, 16] S256x1.size inb_S256x20_S256x1_0_16) := by
  unfold runFirst.sl.v241
  rw [fhs16 c i arg2 harg2 arg3 harg3 arg6 x0 x1]
  show arg6.view.readCov (_ :: _ :: _ :: _ :: _ :: _ :: _ :: _ :: _ :: _ :: _ :: _ :: _ :: _ :: _ :: _ :: [resetPiece]) _ = _
  iterate 16 rw [readCov_col_skip (hab := by decide)]
  exact readCov_col_whole arg6.view 16 _ _ _

theorem fhs17 : runFirst.sl.HS_18 c i arg2 harg2 arg3 harg3 arg6 x0 x1 = firstSfx i x0 x1 17 := by
  unfold runFirst.sl.HS_18
  rw [fv16 c i arg2 harg2 arg3 harg3 arg6 x0 x1, fhs16 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv17 : runFirst.sl.v255 c i arg2 harg2 arg3 harg3 arg6 x0 x1 = View.ld (k0_pay2 (F := F)) (Rect.unit (s := S256x20) ![0, 17] S256x1.size inb_S256x20_S256x1_0_17) := by
  unfold runFirst.sl.v255
  rw [fhs17 c i arg2 harg2 arg3 harg3 arg6 x0 x1]
  show arg6.view.readCov (_ :: _ :: _ :: _ :: _ :: _ :: _ :: _ :: _ :: _ :: _ :: _ :: _ :: _ :: _ :: _ :: _ :: [resetPiece]) _ = _
  iterate 17 rw [readCov_col_skip (hab := by decide)]
  exact readCov_col_whole arg6.view 17 _ _ _

theorem fhs18 : runFirst.sl.HS_19 c i arg2 harg2 arg3 harg3 arg6 x0 x1 = firstSfx i x0 x1 18 := by
  unfold runFirst.sl.HS_19
  rw [fv17 c i arg2 harg2 arg3 harg3 arg6 x0 x1, fhs17 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv18 : runFirst.sl.v269 c i arg2 harg2 arg3 harg3 arg6 x0 x1 = View.ld (k0_pay2 (F := F)) (Rect.unit (s := S256x20) ![0, 18] S256x1.size inb_S256x20_S256x1_0_18) := by
  unfold runFirst.sl.v269
  rw [fhs18 c i arg2 harg2 arg3 harg3 arg6 x0 x1]
  show arg6.view.readCov (_ :: _ :: _ :: _ :: _ :: _ :: _ :: _ :: _ :: _ :: _ :: _ :: _ :: _ :: _ :: _ :: _ :: _ :: [resetPiece]) _ = _
  iterate 18 rw [readCov_col_skip (hab := by decide)]
  exact readCov_col_whole arg6.view 18 _ _ _

theorem fhs19 : runFirst.sl.HS_20 c i arg2 harg2 arg3 harg3 arg6 x0 x1 = firstSfx i x0 x1 19 := by
  unfold runFirst.sl.HS_20
  rw [fv18 c i arg2 harg2 arg3 harg3 arg6 x0 x1, fhs18 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

theorem fv19 : runFirst.sl.v283 c i arg2 harg2 arg3 harg3 arg6 x0 x1 = View.ld (k0_pay2 (F := F)) (Rect.unit (s := S256x20) ![0, 19] S256x1.size inb_S256x20_S256x1_0_19) := by
  unfold runFirst.sl.v283
  rw [fhs19 c i arg2 harg2 arg3 harg3 arg6 x0 x1]
  show arg6.view.readCov (_ :: _ :: _ :: _ :: _ :: _ :: _ :: _ :: _ :: _ :: _ :: _ :: _ :: _ :: _ :: _ :: _ :: _ :: _ :: [resetPiece]) _ = _
  iterate 19 rw [readCov_col_skip (hab := by decide)]
  exact readCov_col_whole arg6.view 19 _ _ _

/-- At the first tile of a row the stores are the zeroing store and then the 20 column stores over the zeros. -/
theorem first_pieces (c : Dev nD) (i : grid0.Coords) (arg2 : Memref sig .tc .vmem S256x1024 .f32) (harg2 : arg2.IsWhole) (arg3 : Memref sig .tc .vmem S256x20 .i32) (harg3 : arg3.IsWhole) (arg4 : Memref sig .tc .vmem S256x20 .f32) (harg4 : arg4.IsWhole) (arg5 : Memref sig .tc .vmem S256x1 .f32) (harg5 : arg5.IsWhole) (arg6 : Memref sig .tc .vmem S256x20 .f32) (harg6 : arg6.IsWhole) (hc0 : condFirst i) (hc2 : ¬condLast i)
    (x0 : Vec F S256x1024 .f32) (x1 : Vec F S256x20 .i32) :
    (runFirst c i arg2 harg2 arg3 harg3 arg4 harg4 arg5 harg5 arg6 harg6 hc0 hc2 x0 x1).1
      = colPieces i x0 x1 (k0_pay2 (F := F)) ++ [⟨Rect.unit (s := S256x20) ![0, 0] S256x20.size inb_S256x20_S256x20_0_0, k0_pay2 (F := F)⟩] := by
  unfold runFirst
  dsimp only
  rw [fv19 c i arg2 harg2 arg3 harg3 arg6 x0 x1, fhs19 c i arg2 harg2 arg3 harg3 arg6 x0 x1]
  sl_unfold_words
  simp only [View.readAt_eq_ld, harg2.read_unread, harg3.read_unread, View.ld_unit_zero (S := S256x1024) hz2, View.ld_unit_zero (S := S256x20) hz2]
  rfl

end Cert.KernelIdeal.Body

end
-- ==== Proof.IdealFrame.lean ====
/-
  The idealized policy-gradient-loss program run from any memory, with everything named: at every point of the 16 x 50
  grid the running sums' buffer holds, for each row and position, the selected score if the selected vocabulary id lies
  in a tile already seen and zero otherwise; at the last tile of a row the output block holds the row's weighted sums.
  Given the three value equations of one tile's step, the body meets the pipeline's obligation at every point, and so
  the program runs to the end with every array of the pipeline at what these contents make it: the inputs as they were,
  the result array overwritten block by block by the weighted row sums.
-/
import proofs.«404340_j11991548690975_1_alg».proof.Proof.IdealAcc
import proofs.«404340_j11991548690975_1_alg».proof.Proof.IdealFirst
import Idealize.ShloMosaic.Lib.Pipeline.Dat
import Idealize.ShloMosaic.Lib.Pipeline.Frame
import Idealize.ShloMosaic.Lib.Pipeline.FrameBody
import Idealize.ShloMosaic.Lib.Pipeline.FrameSuffix
import Idealize.ShloMosaic.Lib.Pipeline.Kit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data, opened -/

theorem A_eq (c : Dev nD) (w : Fin cfg0.W) : (dats m 0 c).A w = V m c (Pipeline.arrRef spec0 w) := by
  dsimp only [dats]

theorem after_0 (c : Dev nD) (t : Fin cfg0.N) : (dats m 0 c).after 0 t = pblk m c t (fun _ => (0 : EReal)) := by
  dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t.val := by dsimp only [dats]

/-- The scores' staging buffer has just been filled at every point: the scores' block on the part inside the array,
    and past the array's end whatever the buffer held (`d`). -/
theorem before_0 (c : Dev nD) (t : Fin cfg0.N) (d) : (dats m 0 c).before 0 t d = pblk m c t d := by
  unfold Dat.before; rw [if_pos (fetch0_0 t)]
  unfold Dat.fetched Dat.blockOf pblk iblk; rw [A_eq]; try rfl

/-- The target ids' and the rewards' staging buffers hold their blocks at every point of a row of the grid. -/
theorem before_1 (c : Dev nD) (t : Fin cfg0.N) (d) : (dats m 0 c).before 1 t d = tblk m c t :=
  before0_1_of m (dats m 0 c) (A_eq m c 1) (after_1 m c) t d
theorem before_2 (c : Dev nD) (t : Fin cfg0.N) (d) : (dats m 0 c).before 2 t d = rblk m c t :=
  before0_2_of m (dats m 0 c) (A_eq m c 2) (after_2 m c) t d

/-- The scores' block filled out with zeros, cut back to its part inside the array, is the block. -/
theorem cut_after_0 (c : Dev nD) (t : Fin cfg0.N) :
    win0_0.cut (grid0.coords t) ((dats m 0 c).after 0 t) = iblk m c 0 t := by
  rw [after_0]; exact win0_0.cut_fill _ _ _

/-! ## The invariant -/

theorem Phi_cast (c : Dev nD) (t : Fin cfg0.N) : (dats m 0 c).Φ t.castSucc = PhiS m c t.val := by
  dsimp only [dats]; simp only [Fin.coe_castSucc]

theorem Phi_succ (c : Dev nD) (t : Fin cfg0.N) :
    (dats m 0 c).Φ t.succ
      = iprop(iprop(owns (c : Thread nD τ) accM fullShare (accAt m c t.val)) ∗ (∃ r, prngReg c r)) := rfl

/-- Before a point that is not the first the running sums' buffer holds what the point before left. -/
theorem PhiS_pos (c : Dev nD) (n : ℕ) (hn : n ≠ 0) :
    PhiS m c n = iprop(iprop(owns (c : Thread nD τ) accM fullShare (accAt m c (n - 1))) ∗ (∃ r, prngReg c r)) := by
  cases n with
  | zero => exact absurd rfl hn
  | succ n => rfl

/-- At any position the invariant gives back what the region lent: the named contents are forgotten. -/
theorem PhiS_lend (c : Dev nD) (n : ℕ) : PhiS m c n ⊢ Pipeline.ΦA spec0 c := by
  cases n with
  | zero => exact .rfl
  | succ n =>
    rw [PhiA_eq]
    show iprop(iprop(owns (c : Thread nD τ) accM fullShare (accAt m c n)) ∗ (∃ r, prngReg c r)) ⊢ _
    iintro ⟨HS, HR⟩
    isplitl [HS]
    · iexists _; iexact HS
    · iexact HR

/-! ## What the stores leave -/

/-- The 20 column stores, read back through the whole buffer, are the step function, -/
theorem read_cols (f : accM.view.ty.Contents (Elt Ideal)) (i : grid0.Coords) (x0 : Vec Ideal S256x1024 .f32)
    (x1 : Vec Ideal S256x20 .i32) (xs : Vec Ideal S256x20 .f32) :
    accM.view.read (Elt Ideal) (accM.view.writes (Elt Ideal) f (colPieces i x0 x1 xs)) = stepAcc i x0 x1 xs := by
  rw [View.read_writes_eq_canon _ _ _ (cover_colPieces i x0 x1 xs), canon_colPieces]

/-- whatever was stored before them. -/
theorem read_cols_append (f : accM.view.ty.Contents (Elt Ideal)) (i : grid0.Coords) (x0 : Vec Ideal S256x1024 .f32)
    (x1 : Vec Ideal S256x20 .i32) (xs : Vec Ideal S256x20 .f32) (L' : List (View.Piece (Elt Ideal) S256x20 .f32)) :
    accM.view.read (Elt Ideal) (accM.view.writes (Elt Ideal) f (colPieces i x0 x1 xs ++ L')) = stepAcc i x0 x1 xs := by
  rw [View.read_writes_eq_canon _ _ _ (fun y => by
    obtain ⟨p, hp, hy⟩ := cover_colPieces i x0 x1 xs y
    exact ⟨p, List.mem_append_left _ hp, hy⟩), canon_colPieces_append]

/-- One store over the whole output block, read back, is what was stored. -/
theorem read_out {sp : Space} (v : View sig .tc sp S256x1 .f32) (f : v.ty.Contents (Elt Ideal)) (w : Vec Ideal S256x1 .f32) :
    v.read (Elt Ideal) (v.writes (Elt Ideal) f
      [(⟨Rect.unit (s := S256x1) ![0, 0] S256x1.size inb_S256x1_S256x1_0_0, w⟩ : View.Piece (Elt Ideal) S256x1 .f32)]) = w := by
  rw [View.read_writes_eq_canon _ _ _ (fun y => View.cover_of_tiledL _ S256x1.size (by sl_kernel_rfl) y),
    View.canon_unit_zero hz2]

/-! ## The body at a point of the grid -/

set_option maxHeartbeats 3200000 in
/-- At any point the body runs from the invariant and the four current staging buffers to the invariant at the next
    position and the buffers as the pipeline asks them back. A point is the first tile of its row, the last, or neither
    (a row has fifty tiles). At the first tile the running sums are reset and the tile's step starts from zeros; at a
    later tile it starts from the sums the tile before left; in both the 20 column stores leave the step's value, which
    the value equations say is the running sums after this point. At the last tile the one store to the output block
    leaves the weighted row sums. Away from the last tile the output's buffer goes back as it came. -/
theorem sound_body (hS : StepFacts m) (c : Dev nD) (t : Fin cfg0.N) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d))
      ∗ (∃ d, owns (c : Thread nD τ) (ms3 t) fullShare ((dats m 0 c).before 3 t d)))
    ⊢ wp frame (wpE (defs₀ (F := Ideal)) Variants.none c none) Set.univ (bodyAt0 t) (fun _ =>
        iprop((dats m 0 c).Φ t.succ ∗ (dats m 0 c).owesAt () t.succ
          ∗ (∃ d, owns (c : Thread nD τ) (ms0 t) fullShare
                (win0_0.fill (grid0.coords t) d (win0_0.cut (grid0.coords t) ((dats m 0 c).after 0 t))))
          ∗ owns (c : Thread nD τ) (ms1 t) fullShare ((dats m 0 c).after 1 t)
          ∗ owns (c : Thread nD τ) (ms2 t) fullShare ((dats m 0 c).after 2 t)
          ∗ (dats m 0 c).leaves 3 t)) := by
  unfold bodyAt0
  rw [cut_after_0, Phi_succ, Phi_cast,
    show (dats m 0 c).owesAt () t.succ = (dats m 0 c).owesAt () t.castSucc from rfl]
  simp only [before_0, before_1, before_2, after_1, after_2]
  have hN : t.val < 800 := lt_of_lt_of_eq t.isLt (show cfg0.N = 800 from N_0)
  by_cases hF : t.val % 50 = 0
  · -- the first tile of a row
    have hL : ¬ t.val % 50 = 49 := by omega
    have hc2 : ¬condLast (grid0.coords t) := fun h => hL ((hcondLast t).mp h)
    rw [Dat.leaves_idle (dats m 0 c) 3 t (idle3 t hc2) (noFlush3 t hc2)]
    refine (sep_mono (PhiS_lend m c t.val) .rfl).trans ?_
    rw [PhiA_eq]
    iintro ⟨⟨HS, HR⟩, Ho, ⟨%d0, H0⟩, ⟨%d1, H1⟩, ⟨%d2, H2⟩, ⟨%d3, H3⟩⟩
    iapply ((runFirst c (grid0.coords t) _ _ _ _ _ _ _ _ _ _ ((hcondFirst t).mpr hF) hc2
      (pblk m c t d0) (tblk m c t)).2 (rblk m c t) ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, ⟨%f, HS⟩⟩
    isplitl [HS HR]
    · isplitl [HS]
      · unfold owns; iexists _; isplitr
        swap; · iexact HS
        ipureintro
        rw [first_pieces, read_cols_append]
        exact hS.first c t d0 hF
      · iexact HR
    isplitl [Ho]; · iexact Ho
    isplitl [H0]; · iexists d0; iexact H0
    isplitl [H1]; · iexact H1
    isplitl [H2]; · iexact H2
    iexists d3; iexact H3
  · -- a later tile: the running sums' buffer holds what the tile before left
    have hz : t.val ≠ 0 := fun h => hF (by rw [h])
    have hc0 : ¬condFirst (grid0.coords t) := fun h => hF ((hcondFirst t).mp h)
    rw [PhiS_pos m c t.val hz]
    by_cases hL : t.val % 50 = 49
    · -- the last tile of a row: the output block is stored
      have hc2 : condLast (grid0.coords t) := (hcondLast t).mpr hL
      rw [show (dats m 0 c).leaves 3 t = owns (c : Thread nD τ) (ms3 t) fullShare ((dats m 0 c).after 3 t) from by
        unfold Dat.leaves; rw [live3 t hc2], after_3]
      iintro ⟨⟨HS, HR⟩, Ho, ⟨%d0, H0⟩, ⟨%d1, H1⟩, ⟨%d2, H2⟩, ⟨%d3, H3⟩⟩
      iapply ((runLast c (grid0.coords t) _ _ _ _ _ _ _ _ _ _ hc0 hc2
        (pblk m c t d0) (tblk m c t) (rblk m c t) (accAt m c (t.val - 1))).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%g, H3⟩, ⟨%f, HS⟩⟩
      isplitl [HS HR]
      · isplitl [HS]
        · unfold owns; iexists _; isplitr
          swap; · iexact HS
          ipureintro
          rw [last_pieces_acc, read_cols]
          exact hS.next c t d0 hF
        · iexact HR
      isplitl [Ho]; · iexact Ho
      isplitl [H0]; · iexists d0; iexact H0
      isplitl [H1]; · iexact H1
      isplitl [H2]; · iexact H2
      unfold owns; iexists _; isplitr
      swap; · iexact H3
      ipureintro
      rw [last_pieces_out, read_out, hS.next c t d0 hF]
      exact hS.out c t hL
    · -- a tile in between
      have hc2 : ¬condLast (grid0.coords t) := fun h => hL ((hcondLast t).mp h)
      rw [Dat.leaves_idle (dats m 0 c) 3 t (idle3 t hc2) (noFlush3 t hc2)]
      iintro ⟨⟨HS, HR⟩, Ho, ⟨%d0, H0⟩, ⟨%d1, H1⟩, ⟨%d2, H2⟩, ⟨%d3, H3⟩⟩
      iapply ((runMid c (grid0.coords t) _ _ _ _ _ _ _ _ _ _ hc0 hc2
        (pblk m c t d0) (tblk m c t) (accAt m c (t.val - 1))).2 (rblk m c t) ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, ⟨%f, HS⟩⟩
      isplitl [HS HR]
      · isplitl [HS]
        · unfold owns; iexists _; isplitr
          swap; · iexact HS
          ipureintro
          rw [mid_pieces, read_cols]
          exact hS.next c t d0 hF
        · iexact HR
      isplitl [Ho]; · iexact Ho
      isplitl [H0]; · iexists d0; iexact H0
      isplitl [H1]; · iexact H1
      isplitl [H2]; · iexact H2
      iexists d3; iexact H3

/-- The body obligation the pipeline's loop asks, at every point: the four windows taken one by one, it is the run above. -/
theorem body_obligation (hS : StepFacts m) (c : Dev nD) :
    BodyObligationLoose (dats m 0 c) (defs₀ (F := Ideal)) Variants.none () Set.univ := fun t => by
  rw [bigSep_W0, bigSep_W0]
  exact sound_body m hS c t

/-! ## The run -/

/-- What the region lends is the invariant before the first point, -/
theorem hin (c : Dev nD) : Pipeline.ΦA spec0 c ⊢ (dats m 0 c).Φ 0 := by
  rw [show (dats m 0 c).Φ 0 = Pipeline.ΦA spec0 c from rfl]

/-- and after the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl]
  exact PhiS_lend m c _

set_option backward.isDefEq.respectTransparency.types false in
/-- Given the value equations of one tile's step: from any memory with zero counters, every fair execution of the
    program on the TensorCores ends, and at the end every array of the pipeline holds what the named contents make it
    — an input what it held, the result array its blocks overwritten by the weighted row sums — and every other
    buffer outside the region what the host operations after the region compute from those. -/
theorem run_main (hS : StepFacts m) :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hS c) (hshare := fun c => (dats m 0 c).share_full fun _ => rfl)
    (howed := fun _ _ => rfl) (V₀ := V0 m) (opss := [hostOps1]) sfx_sub sfx_fresh sfx_keeps
    (hmain := hmain m Variants.none) (hA := A_eq m) (hin := hin m) (hout := hout m)

end Cert.KernelIdeal.Body

end
-- ==== Proof.IdealBlocks.lean ====
/-
  The three input windows' blocks read at an entry. At point t = 50 * bi + vi the target ids' and rewards' blocks are
  rows 256 * bi .. 256 * bi + 255 of their arrays, and the scores' staging buffer holds, at (b, lane), the score of row
  256 * bi + b at vocabulary id 1024 * vi + lane wherever that id is below 50257 — the part of the block inside the
  array; the last tile of a row has only 81 such lanes, and nothing is said of the other lanes.
-/
import proofs.«404340_j11991548690975_1_alg».proof.Proof.IdealAcc

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable (m : (ℓ : Loc nD τ sig) → Buf (Elt Ideal) ℓ)

/-- The windows' block indices and the scores' clipped extents, decided over the 800 points. -/
theorem idx_w0 : ∀ t : Fin cfg0.N, win0_0.index t (0 : Fin 2) = t.val / 50 ∧ win0_0.index t (1 : Fin 2) = t.val % 50 :=
  (by decide +kernel : ∀ t : Fin grid0.N, win0_0.index t (0 : Fin 2) = t.val / 50 ∧ win0_0.index t (1 : Fin 2) = t.val % 50)
theorem idx_w1 : ∀ t : Fin cfg0.N, win0_1.index t (0 : Fin 2) = t.val / 50 ∧ win0_1.index t (1 : Fin 2) = 0 :=
  (by decide +kernel : ∀ t : Fin grid0.N, win0_1.index t (0 : Fin 2) = t.val / 50 ∧ win0_1.index t (1 : Fin 2) = 0)
theorem idx_w2 : ∀ t : Fin cfg0.N, win0_2.index t (0 : Fin 2) = t.val / 50 ∧ win0_2.index t (1 : Fin 2) = 0 :=
  (by decide +kernel : ∀ t : Fin grid0.N, win0_2.index t (0 : Fin 2) = t.val / 50 ∧ win0_2.index t (1 : Fin 2) = 0)
theorem xsize_w0 : ∀ t : Fin cfg0.N, win0_0.xsize (grid0.coords t) (0 : Fin 2) = 256
    ∧ win0_0.xsize (grid0.coords t) (1 : Fin 2) = (if t.val % 50 = 49 then 81 else 1024) :=
  (by decide +kernel : ∀ t : Fin grid0.N, win0_0.xsize (grid0.coords t) (0 : Fin 2) = 256
    ∧ win0_0.xsize (grid0.coords t) (1 : Fin 2) = (if t.val % 50 = 49 then 81 else 1024))
/-- The vocabulary tile of a point. -/
theorem coord_vi : ∀ t : Fin cfg0.N, ((grid0.coords t) 1).val = t.val % 50 :=
  (by decide +kernel : ∀ t : Fin grid0.N, ((grid0.coords t) 1).val = t.val % 50)

theorem lt_800 (t : Fin cfg0.N) : t.val < 800 := lt_of_lt_of_eq t.isLt (show cfg0.N = 800 from N_0)

/-- The array row of a block row at a point of the grid. -/
theorem rowOf_val (t : Fin cfg0.N) (b : Fin 256) : (rowOf t.val b).val = 256 * (t.val / 50) + b.val := by
  have := lt_800 t; have := b.isLt
  show (256 * (t.val / 50) + b.val) % 4096 = _
  omega

/-- The target ids' block. -/
theorem tblk_apply (c : Dev nD) (t : Fin cfg0.N) (b : Fin 256) (s : Fin 20) :
    tblk m c t (ix2 b s) = tgtA m c (ix2 (rowOf t.val b) s) := by
  show V m c main_arg1 (((cfg0.win 1).blk t).view.emb (ix2 b s)) = V m c main_arg1 (ix2 (rowOf t.val b) s)
  refine congrArg _ (funext fun a => Fin.ext ?_)
  match a with
  | ⟨0, _⟩ =>
    show win0_1.index t (0 : Fin 2) * 256 + 1 * b.val = (rowOf t.val b).val
    rw [(idx_w1 t).1, rowOf_val]; omega
  | ⟨1, _⟩ =>
    show win0_1.index t (1 : Fin 2) * 20 + 1 * s.val = s.val
    rw [(idx_w1 t).2]; omega

/-- The rewards' block. -/
theorem rblk_apply (c : Dev nD) (t : Fin cfg0.N) (b : Fin 256) (s : Fin 20) :
    rblk m c t (ix2 b s) = rewA m c (ix2 (rowOf t.val b) s) := by
  show V m c main_arg2 (((cfg0.win 2).blk t).view.emb (ix2 b s)) = V m c main_arg2 (ix2 (rowOf t.val b) s)
  refine congrArg _ (funext fun a => Fin.ext ?_)
  match a with
  | ⟨0, _⟩ =>
    show win0_2.index t (0 : Fin 2) * 256 + 1 * b.val = (rowOf t.val b).val
    rw [(idx_w2 t).1, rowOf_val]; omega
  | ⟨1, _⟩ =>
    show win0_2.index t (1 : Fin 2) * 20 + 1 * s.val = s.val
    rw [(idx_w2 t).2]; omega

/-- The scores' staging buffer on the lanes inside the array, whatever lies past the array's end. -/
theorem pblk_apply (c : Dev nD) (t : Fin cfg0.N) (d : S256x1024.Idx → Elt Ideal .f32) (b : Fin 256) (l : Fin 1024)
    (h : 1024 * (t.val % 50) + l.val < 50257) :
    pblk m c t d (ix2 b l) = predA m c (ix2 (rowOf t.val b) ⟨1024 * (t.val % 50) + l.val, h⟩) := by
  have hx := xsize_w0 t
  have hlt : ∀ a : Fin 2, ((ix2 b l : S256x1024.Idx) a).val < win0_0.xsize (grid0.coords t) a := fun a => by
    match a with
    | ⟨0, _⟩ => show b.val < win0_0.xsize (grid0.coords t) (0 : Fin 2); rw [hx.1]; exact b.isLt
    | ⟨1, _⟩ =>
      show l.val < win0_0.xsize (grid0.coords t) (1 : Fin 2); rw [hx.2]
      have := l.isLt; have := lt_800 t
      split <;> omega
  let j : (win0_0.xblock (grid0.coords t)).Idx := fun a => ⟨((ix2 b l : S256x1024.Idx) a).val, hlt a⟩
  have hj : (ix2 b l : S256x1024.Idx) = win0_0.xinj (grid0.coords t) j := funext fun a => Fin.ext rfl
  show win0_0.fill (grid0.coords t) d (iblk m c 0 t) (ix2 b l) = _
  rw [hj, Window.fill_xinj]
  show V m c main_arg0 (((cfg0.win 0).blk t).view.emb j) = V m c main_arg0 (ix2 (rowOf t.val b) ⟨1024 * (t.val % 50) + l.val, h⟩)
  refine congrArg _ (funext fun a => Fin.ext ?_)
  match a with
  | ⟨0, _⟩ =>
    show win0_0.index t (0 : Fin 2) * 256 + 1 * b.val = (rowOf t.val b).val
    rw [(idx_w0 t).1, rowOf_val]; omega
  | ⟨1, _⟩ =>
    show win0_0.index t (1 : Fin 2) * 1024 + 1 * l.val = 1024 * (t.val % 50) + l.val
    rw [(idx_w0 t).2]; omega

end Cert.KernelIdeal.Body

end
-- ==== Proof.IdealMath.lean ====
/-
  The body's arithmetic over the extended reals, read at one entry. A lane of the tile at vocabulary tile vi carries
  the id 1024 * vi + lane. The column update adds, to the old entry of row b, the sum over the 1024 lanes of
  [the row's target id equals the lane's id] * (score at (b, lane)); since 0 * x = 0 for every extended real x, the sum
  is the score at the one matching lane if the target id lies in the tile and 0 otherwise. The output row is the sum
  over the 20 positions of running sum times reward.
-/
import proofs.«404340_j11991548690975_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.ValueIdx

/-- The id word of lane `l` of the tile at grid point `i`. -/
theorem lane_id (i : grid0.Coords) (l : Fin 1024) :
    k0_pay3 i (ix2 (0 : Fin 1) l) = BitVec.ofNat 32 (i 1).val * 1024#32 + BitVec.ofNat 32 l.val := by
  unfold k0_pay3
  show IntOp.addi (IntOp.muli (BitVec.ofNat 32 (i 1).val) 1024#32) (iota .tc S1x1024 32 [1] iota_S1x1024_d1_w32 (ix2 (0 : Fin 1) l)) = _
  rw [iota_single_apply]
  rfl

/-- It is the number 1024 * vi + l (no wrap: the grid has 50 vocabulary tiles). -/
theorem lane_id_toNat (vi l : ℕ) (hvi : vi < 50) (hl : l < 1024) :
    (BitVec.ofNat 32 vi * 1024#32 + BitVec.ofNat 32 l).toNat = 1024 * vi + l := by
  rw [BitVec.toNat_add, BitVec.toNat_mul, BitVec.toNat_ofNat, BitVec.toNat_ofNat]
  simp only [BitVec.toNat_ofNat, Nat.reducePow, Nat.reduceMod]
  omega

/-- The one-bit comparison of two words, widened and converted, is 1 or 0. -/
theorem ind_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    have e : (IntOp.cmpi .eq a a).setWidth 32 = 1#32 := by simp [IntOp.cmpi]
    rw [e, if_pos rfl, show (1#32 : BitVec 32).toInt = 1 from by decide]
    norm_num
  · have hb : (a == b) = false := by simpa using h
    have e : (IntOp.cmpi .eq a b).setWidth 32 = 0#32 := by simp [IntOp.cmpi, hb]
    rw [e, if_neg h, show (0#32 : BitVec 32).toInt = 0 from by decide]
    norm_num

/-- The column update at row `b`: the old entry plus the masked lane sum. -/
theorem colUpd_apply (v6 : IVec S1x1024 32) (x0 : FVec Ideal S256x1024 .f32) (tcol : IVec S256x1 32) (old : FVec Ideal S256x1 .f32) (b : Fin 256) :
    k0_pay7 (F := Ideal) v6 x0 tcol old (ix2 b (0 : Fin 1))
      = old (ix2 b (0 : Fin 1)) + ∑ l : Fin 1024, (if tcol (ix2 b (0 : Fin 1)) = v6 (ix2 (0 : Fin 1) l) then (1 : EReal) else 0) * x0 (ix2 b l) := by
  unfold k0_pay7
  refine (shapeCast_apply _ shapeCasts_S256_S256x1 (ix2 b (0 : Fin 1)) (ix1 b) (by
    rw [Shape.rowMajor_val_one, Shape.rowMajor_val_two]; show b.val = b.val * 1 + 0; omega)).trans ?_
  refine (addf_apply _ _ (ix1 b)).trans ?_
  refine congrArg₂ (· + ·) (shapeCast_apply old shapeCasts_S256x1_S256 (ix1 b) (ix2 b (0 : Fin 1)) (by
    rw [Shape.rowMajor_val_one, Shape.rowMajor_val_two]; show b.val * 1 + 0 = b.val; omega)) ?_
  refine (Ideal.multiReduction_add_single _ 0x00000000#32 reduces_S256x1024_S256 (.inl rfl) rfl (ix1 b)).trans ?_
  refine Finset.sum_congr rfl fun l _ => ?_
  have hl : (reduces_S256x1024_S256.lift (ix1 b) l : S256x1024.Idx) = ix2 b l := funext fun a => match a with
    | ⟨0, _⟩ => rfl
    | ⟨1, _⟩ => rfl
  rw [hl]
  show FloatOps.mulf (FloatOps.sitofp (F := Ideal) .f32 ((IntOp.cmpi .eq (broadcastTo S256x1024 tcol broadcasts_S256x1_S256x1024 (ix2 b l)) (broadcastTo S256x1024 v6 broadcasts_S1x1024_S256x1024 (ix2 b l))).setWidth 32)) (x0 (ix2 b l)) = _
  rw [broadcastTo_apply tcol broadcasts_S256x1_S256x1024 (ix2 b l) (ix2 b (0 : Fin 1)) (fun a => match a with
      | ⟨0, _⟩ => by show b.val = if (256 : ℕ) = 1 then 0 else b.val; rw [if_neg (by decide)]
      | ⟨1, _⟩ => by show 0 = if (1 : ℕ) = 1 then 0 else l.val; rw [if_pos rfl]),
    broadcastTo_apply v6 broadcasts_S1x1024_S256x1024 (ix2 b l) (ix2 (0 : Fin 1) l) (fun a => match a with
      | ⟨0, _⟩ => by show 0 = if (1 : ℕ) = 1 then 0 else b.val; rw [if_pos rfl]
      | ⟨1, _⟩ => by show l.val = if (1024 : ℕ) = 1 then 0 else l.val; rw [if_neg (by decide)]),
    ind_eq]
  rfl

/-- The zeroing store's value is zero everywhere. -/
theorem zeros_apply (y : S256x20.Idx) : k0_pay2 (F := Ideal) y = 0 := by
  unfold k0_pay2
  rw [shapeCast_self]
  show Ideal.ofBits .f32 0x00000000#32 = 0
  exact Ideal.ofBits_zero_f32

/-- The output row: the sum over the 20 positions of running sum times reward. -/
theorem rowOut_apply (acc rew : FVec Ideal S256x20 .f32) (b : Fin 256) :
    k0_pay1 (F := Ideal) acc rew (ix2 b (0 : Fin 1)) = ∑ s : Fin 20, acc (ix2 b s) * rew (ix2 b s) := by
  unfold k0_pay1
  refine (shapeCast_apply _ shapeCasts_S256_S256x1 (ix2 b (0 : Fin 1)) (ix1 b) (by
    rw [Shape.rowMajor_val_one, Shape.rowMajor_val_two]; show b.val = b.val * 1 + 0; omega)).trans ?_
  refine (Ideal.multiReduction_add_single _ 0x00000000#32 reduces_S256x20_S256 (.inl rfl) rfl (ix1 b)).trans ?_
  refine Finset.sum_congr rfl fun s _ => ?_
  have hs : (reduces_S256x20_S256.lift (ix1 b) s : S256x20.Idx) = ix2 b s := funext fun a => match a with
    | ⟨0, _⟩ => rfl
    | ⟨1, _⟩ => rfl
  rw [hs]
  rfl

/-- A masked lane sum picks the one matching lane: for a word `T` below 50257 read unsigned and a tile vi < 50, the sum
    over the lanes of [T is the lane's id] * X lane is X at lane T - 1024 * vi if T lies in the tile, else 0. -/
theorem lane_sum (T : BitVec 32) (vi : ℕ) (hvi : vi < 50) (hT : T.toNat < 50257) (X : Fin 1024 → EReal) :
    ∑ l : Fin 1024, (if T = BitVec.ofNat 32 vi * 1024#32 + BitVec.ofNat 32 l.val then (1 : EReal) else 0) * X l
      = if h : 1024 * vi ≤ T.toNat ∧ T.toNat < 1024 * vi + 1024 then X ⟨T.toNat - 1024 * vi, by omega⟩ else 0 := by
  have key : ∀ l : Fin 1024, (T = BitVec.ofNat 32 vi * 1024#32 + BitVec.ofNat 32 l.val) ↔ T.toNat = 1024 * vi + l.val := fun l => by
    rw [← lane_id_toNat vi l.val hvi l.isLt]
    exact ⟨fun h => congrArg BitVec.toNat h, fun h => BitVec.eq_of_toNat_eq h⟩
  split
  · rename_i h
    rw [Finset.sum_eq_single (⟨T.toNat - 1024 * vi, by omega⟩ : Fin 1024)]
    · rw [if_pos ((key _).mpr (by show T.toNat = 1024 * vi + (T.toNat - 1024 * vi); omega)), one_mul]
    · intro l _ hne
      rw [if_neg (fun he => hne (Fin.ext (by have := (key l).mp he; show l.val = T.toNat - 1024 * vi; omega))), zero_mul]
    · intro hn; exact absurd (Finset.mem_univ _) hn
  · rename_i h
    refine Finset.sum_eq_zero fun l _ => ?_
    rw [if_neg (fun he => h (by have := (key l).mp he; have := l.isLt; omega)), zero_mul]

end Cert.KernelIdeal.Body

end
-- ==== Proof.IdealSteps.lean ====
/-
  One tile's step keeps the closed form of the running sums. With every target id below 50257: at (b, s) the masked
  lane sum of the tile vi is the selected score if the id lies in [1024 * vi, 1024 * vi + 1024) — that lane is inside
  the array, so the staging buffer holds the score there — and 0 otherwise; added to "the selected score if the id is
  below 1024 * vi, else 0" it gives "the selected score if the id is below 1024 * (vi + 1), else 0". At the last tile
  every id is below 1024 * 50, so the sums are the selected scores and the output row is their reward-weighted sum.
-/
import proofs.«404340_j11991548690975_1_alg».proof.Proof.IdealBlocks
import proofs.«404340_j11991548690975_1_alg».proof.Proof.IdealMath

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen Idealize.ShloMosaic.ValueIdx

variable (m : (ℓ : Loc nD τ sig) → Buf (Elt Ideal) ℓ)

/-- The masked lane sum of the tile at point `t` for the entry (b, s): the selected score if the selected id lies in
    the tile, else 0 — whatever the staging buffer holds past the array's end. -/
theorem tile_sum (hR : ∀ (c : Dev nD) (j : S4096x20.Idx), (tgtA m c j).toNat < 50257)
    (c : Dev nD) (t : Fin cfg0.N) (d : S256x1024.Idx → Elt Ideal .f32) (b : Fin 256) (s : Fin 20) :
    ∑ l : Fin 1024, (if colOf (tblk m c t) s (ix2 b (0 : Fin 1)) = k0_pay3 (grid0.coords t) (ix2 (0 : Fin 1) l) then (1 : EReal) else 0)
        * pblk m c t d (ix2 b l)
      = if 1024 * (t.val % 50) ≤ (tgtA m c (ix2 (rowOf t.val b) s)).toNat ∧ (tgtA m c (ix2 (rowOf t.val b) s)).toNat < 1024 * (t.val % 50) + 1024 then
          Cert.PgLoss.picked (predA m c) (tgtA m c) (ix2 (rowOf t.val b) s)
        else 0 := by
  have hT := hR c (ix2 (rowOf t.val b) s)
  have hvi : t.val % 50 < 50 := Nat.mod_lt _ (by decide)
  have e1 : colOf (tblk m c t) s (ix2 b (0 : Fin 1)) = tgtA m c (ix2 (rowOf t.val b) s) := tblk_apply m c t b s
  have e2 : ∀ l : Fin 1024, k0_pay3 (grid0.coords t) (ix2 (0 : Fin 1) l) = BitVec.ofNat 32 (t.val % 50) * 1024#32 + BitVec.ofNat 32 l.val := fun l => by
    rw [lane_id, coord_vi]
  simp only [e1, e2]
  rw [lane_sum (tgtA m c (ix2 (rowOf t.val b) s)) (t.val % 50) hvi hT (fun l => pblk m c t d (ix2 b l))]
  split
  · rename_i h
    show pblk m c t d (ix2 b ⟨(tgtA m c (ix2 (rowOf t.val b) s)).toNat - 1024 * (t.val % 50), _⟩) = _
    rw [pblk_apply m c t d b _ (by show 1024 * (t.val % 50) + ((tgtA m c (ix2 (rowOf t.val b) s)).toNat - 1024 * (t.val % 50)) < 50257; omega),
      Cert.PgLoss.picked_eq _ _ _ hT]
    refine congrArg _ (funext fun a => Fin.ext ?_)
    match a with
    | ⟨0, _⟩ => rfl
    | ⟨1, _⟩ =>
      show 1024 * (t.val % 50) + ((tgtA m c (ix2 (rowOf t.val b) s)).toNat - 1024 * (t.val % 50)) = (tgtA m c (ix2 (rowOf t.val b) s)).toNat
      omega
  · rfl

theorem stepFacts_of_range (hR : ∀ (c : Dev nD) (j : S4096x20.Idx), (tgtA m c j).toNat < 50257) : StepFacts m where
  first := fun c t d h0 => by
    funext y
    obtain ⟨b, s, rfl⟩ : ∃ (b : Fin 256) (s : Fin 20), y = ix2 b s := ⟨y 0, y 1, eq_ix2 y⟩
    show k0_pay7 (F := Ideal) (k0_pay3 (grid0.coords t)) (pblk m c t d) (colOf (tblk m c t) s) (colOf (k0_pay2 (F := Ideal)) s) (ix2 b (0 : Fin 1)) = _
    rw [colUpd_apply, tile_sum m hR c t d b s]
    show k0_pay2 (F := Ideal) (ix2 b s) + _ = accAt m c t.val (ix2 b s)
    rw [zeros_apply, zero_add]
    unfold accAt
    show _ = if (tgtA m c (ix2 (rowOf t.val b) s)).toNat < 1024 * (t.val % 50 + 1) then _ else _
    rw [h0]
    by_cases hc : (tgtA m c (ix2 (rowOf t.val b) s)).toNat < 1024
    · rw [if_pos (by omega), if_pos (by omega)]
    · rw [if_neg (by omega), if_neg (by omega)]
  next := fun c t d hnz => by
    funext y
    obtain ⟨b, s, rfl⟩ : ∃ (b : Fin 256) (s : Fin 20), y = ix2 b s := ⟨y 0, y 1, eq_ix2 y⟩
    show k0_pay7 (F := Ideal) (k0_pay3 (grid0.coords t)) (pblk m c t d) (colOf (tblk m c t) s) (colOf (accAt m c (t.val - 1)) s) (ix2 b (0 : Fin 1)) = _
    rw [colUpd_apply, tile_sum m hR c t d b s]
    show accAt m c (t.val - 1) (ix2 b s) + _ = accAt m c t.val (ix2 b s)
    have hrow : rowOf (t.val - 1) b = rowOf t.val b := Fin.ext (by
      show (256 * ((t.val - 1) / 50) + b.val) % 4096 = (256 * (t.val / 50) + b.val) % 4096
      have : (t.val - 1) / 50 = t.val / 50 := by omega
      rw [this])
    have hvi : (t.val - 1) % 50 + 1 = t.val % 50 := by omega
    unfold accAt
    show (if (tgtA m c (ix2 (rowOf (t.val - 1) b) s)).toNat < 1024 * ((t.val - 1) % 50 + 1) then Cert.PgLoss.picked (predA m c) (tgtA m c) (ix2 (rowOf (t.val - 1) b) s) else 0) + _
      = if (tgtA m c (ix2 (rowOf t.val b) s)).toNat < 1024 * (t.val % 50 + 1) then Cert.PgLoss.picked (predA m c) (tgtA m c) (ix2 (rowOf t.val b) s) else 0
    rw [hrow, hvi]
    by_cases h1 : (tgtA m c (ix2 (rowOf t.val b) s)).toNat < 1024 * (t.val % 50)
    · rw [if_pos h1, if_neg (by omega), if_pos (by omega), add_zero]
    · by_cases h2 : (tgtA m c (ix2 (rowOf t.val b) s)).toNat < 1024 * (t.val % 50) + 1024
      · rw [if_neg h1, if_pos ⟨by omega, h2⟩, if_pos (by omega), zero_add]
      · rw [if_neg h1, if_neg (by omega), if_neg (by omega), add_zero]
  out := fun c t h49 => by
    funext y
    obtain ⟨b, rfl⟩ : ∃ b : Fin 256, y = ix2 b (0 : Fin 1) := ⟨y 0, by
      rw [eq_ix2 y]; congr 1; exact Fin.ext (by have h1 := (y 1).isLt; change (y 1).val < 1 at h1; show (y 1).val = 0; omega)⟩
    rw [rowOut_apply]
    show _ = ∑ s : Fin 20, Cert.PgLoss.picked (predA m c) (tgtA m c) (ix2 (rowOf t.val b) s) * rewA m c (ix2 (rowOf t.val b) s)
    refine Finset.sum_congr rfl fun s _ => ?_
    rw [rblk_apply]
    refine congrArg (· * rewA m c (ix2 (rowOf t.val b) s)) ?_
    show (if (tgtA m c (ix2 (rowOf t.val b) s)).toNat < 1024 * (t.val % 50 + 1) then Cert.PgLoss.picked (predA m c) (tgtA m c) (ix2 (rowOf t.val b) s) else 0) = _
    have := hR c (ix2 (rowOf t.val b) s)
    rw [if_pos (by omega)]

end Cert.KernelIdeal.Body

end
-- ==== Proof.IdealValue.lean ====
import proofs.«404340_j11991548690975_1_alg».proof.Proof.IdealAcc
import Idealize.ShloMosaic.Lib.Pipeline.Value
import Idealize.ShloMosaic.Lib.Pipeline.FrameSuffix
import Idealize.ShloMosaic.PureOps.Ideal.Laws
import Idealize.ShloMosaic.Lib.ValueIdx
import Idealize.ShloMosaic.Lib.Tactic

/-!
# The idealized kernel's result, read off its frame run

The region writes the result array `[4096, 1]` through its output window in blocks of 256 rows; only the last tile of a
row block (a point ≡ 49 mod 50) writes back, and what it writes is, row by row, the sum over the 20 positions of
selected score times reward. The 16 written blocks tile the 4096 rows, so after the region the array holds every row's
weighted sum. The five host operations after the region add the rows up from the zero word's value, negate and
divide by the word for 4096.0: the loss.
-/

set_option maxRecDepth 16384

noncomputable section

open scoped BigOperators

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ) (ρ : Dev nD → PrngReg)

/-- The weighted sum of row `r`. -/
def rowSum (c : Dev nD) (r : Fin 4096) : EReal :=
  ∑ s : Fin 20, Cert.PgLoss.picked (predA m c) (tgtA m c) (ix2 r s) * rewA m c (ix2 r s)

/-- The result array: row r holds the row's weighted sum. -/
def rowSums (c : Dev nD) : Vec Ideal S4096x1 .f32 := fun i => rowSum m c ⟨(i 0).val, idx2_lt0 i⟩

theorem idx_facts : ∀ t : Fin cfg0.N, win0_3.index t (0 : Fin 2) = t.val / 50 ∧ win0_3.index t (1 : Fin 2) = 0 :=
  (by decide +kernel : ∀ t : Fin grid0.N, win0_3.index t (0 : Fin 2) = t.val / 50 ∧ win0_3.index t (1 : Fin 2) = 0)

theorem outAt_apply (c : Dev nD) (n : ℕ) (q : S256x1.Idx) : outAt m c n q = rowSum m c (rowOf n ⟨(q 0).val, idx2_lt0 q⟩) := rfl

theorem flushed_eq (c : Dev nD) (t : Fin cfg0.N) :
    (dats m 0 c).flushed 3 t = ((cfg0.win 3).blk t).view.read (Elt Ideal) (rowSums m c) := by
  show (cfg0.win 3).cut (grid0.coords t) ((dats m 0 c).after 3 t) = _
  dsimp only [dats]
  funext y
  show outAt m c t.val y = rowSums m c (((cfg0.win 3).blk t).view.emb y)
  rw [outAt_apply]
  unfold rowSums
  congr 1
  apply Fin.ext
  have hN : t.val < 800 := lt_of_lt_of_eq t.isLt N_0
  have hy : (y 0).val < 256 := (y 0).isLt
  obtain ⟨e0, e1⟩ := idx_facts t
  show (256 * (t.val / 50) + (y 0).val) % 4096 = win0_3.index t (0 : Fin 2) * 256 + 1 * (y 0).val
  rw [e0]
  omega

/-- An index of the result array is in point `t`'s block iff each coordinate is in the block's range on its axis. -/
theorem mem_blk (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0).slice (win0_3.rect t)).set ↔ _
  rw [View.set_slice_whole, Rect.mem_set_unit]
  exact Iff.rfl

/-- Every row of the result array lies in the block some writing-back point covers: row r in the block of the last tile
    of its row block, point 50 * (r / 256) + 49. -/
theorem cover (i : S4096x1.Idx) : ∃ t : Fin cfg0.N, (cfg0.win 3).flush t = true ∧ i ∈ ((cfg0.win 3).blk t).view.set := by
  have hi0 : (i 0).val < 4096 := idx2_lt0 i
  have hi1 : (i 1).val < 1 := idx2_lt1 i
  have hN : cfg0.N = 800 := N_0
  have ht : 50 * ((i 0).val / 256) + 49 < cfg0.N := by rw [hN]; omega
  refine ⟨⟨50 * ((i 0).val / 256) + 49, ht⟩, (flush0_3 _).mpr (by show (50 * ((i 0).val / 256) + 49) % 50 = 49; omega), ?_⟩
  rw [mem_blk]
  obtain ⟨e0, e1⟩ := idx_facts ⟨50 * ((i 0).val / 256) + 49, ht⟩
  intro a
  match a with
  | ⟨0, _⟩ =>
    show win0_3.index ⟨50 * ((i 0).val / 256) + 49, ht⟩ (0 : Fin 2) * 256 ≤ (i 0).val ∧ (i 0).val < win0_3.index ⟨50 * ((i 0).val / 256) + 49, ht⟩ (0 : Fin 2) * 256 + 256
    rw [e0]
    show (50 * ((i 0).val / 256) + 49) / 50 * 256 ≤ (i 0).val ∧ (i 0).val < (50 * ((i 0).val / 256) + 49) / 50 * 256 + 256
    omega
  | ⟨1, _⟩ =>
    show win0_3.index ⟨50 * ((i 0).val / 256) + 49, ht⟩ (1 : Fin 2) * 1 ≤ (i 1).val ∧ (i 1).val < win0_3.index ⟨50 * ((i 0).val / 256) + 49, ht⟩ (1 : Fin 2) * 1 + 1
    rw [e1]
    omega

/-- THE RESULT ARRAY after the region: every row at its weighted sum. -/
theorem final (c : Dev nD) : (dats m 0 c).arrAt 3 cfg0.N = rowSums m c :=
  (dats m 0 c).arrAt_eq_of_cover 3 (rowSums m c) (fun t _ => flushed_eq m c t) cover

/-! ## The host operations after the region -/

/-- The host's float sum of the result array over both axes, from the zero word: the word's value plus the sum over the
    rows. -/
theorem reduceAdd_rowSums (c : Dev nD) (i : S_.Idx) :
    Host.reduceAdd (F := Ideal) (rowSums m c) (constant (F := Ideal) S_ .f32 0x00000000#32) reducesTo_S4096x1_S_d0_1 h_S_ i
      = Ideal.ofBits .f32 0x00000000#32 + ∑ r : Fin 4096, rowSum m c r := by
  have h1 : Host.reduceAdd (F := Ideal) (rowSums m c) (constant (F := Ideal) S_ .f32 0x00000000#32) reducesTo_S4096x1_S_d0_1 h_S_ i
      = (constant (F := Ideal) S_ .f32 0x00000000#32) (Shape.Idx.first h_S_) + ∑ j : S4096x1.Idx, rowSums m c j := by
    simp only [Host.reduceAdd, Ideal.hostReduceAdd_def]
    exact Ideal.hostReduceAdd_total reducesTo_S4096x1_S_d0_1 (fun b => b.elim0) (rowSums m c) _ i
  rw [h1, constant_apply, sum_idx2]
  congr 1
  refine Finset.sum_congr rfl fun r _ => ?_
  rw [Fin.sum_univ_one]
  rfl

/-- The sum over the rows of the rows' weighted sums, from the zero word's value, is the total. -/
theorem total_eq (c : Dev nD) :
    Ideal.ofBits .f32 0x00000000#32 + ∑ r : Fin 4096, rowSum m c r = Cert.PgLoss.total (predA m c) (tgtA m c) (rewA m c) := by
  rw [Cert.PgLoss.total_rows]
  rfl

/-- What the program's result buffer holds after the five host operations that follow the region: the loss. -/
theorem tail_eq (c : Dev nD) :
    Pipeline.afterTail₀ cfgs (dats m) 0 (V0 m) [hostOps1] c main_v3
      = (fun _ => Cert.PgLoss.loss (predA m c) (tgtA m c) (rewA m c)) := by
  unfold Pipeline.afterTail₀
  show StableHlo.after hostOps1 _ (Proc.devRef .tc main_v3) = _
  after_results
  have harr : Pipeline.withArrays (cfgs 0).spec c (V0 m c) (fun w => (dats m 0 c).arrAt w (cfgs 0).N) (Proc.devRef .tc main_v0)
      = rowSums m c :=
    (Pipeline.withArrays_arr spec0 launch0.win.arr_inj c _ _ 3).trans (final m c)
  rw [harr]
  funext i
  show FloatOps.hostDivf (FloatOps.hostNegf (Host.reduceAdd (F := Ideal) (rowSums m c) (constant (F := Ideal) S_ .f32 0x00000000#32) reducesTo_S4096x1_S_d0_1 h_S_ i))
      (constant (F := Ideal) S_ .f32 0x45800000#32 i) = _
  rw [reduceAdd_rowSums, total_eq, constant_apply, Ideal.hostDivf_def, Ideal.hostNegf_def, Ideal.negf_def]
  rfl

/-! ## The run, read -/

/-- From the frame run: the program's result buffer ends at the loss of the argument arrays, which are unchanged. -/
theorem kernel_result
    (hrun : θ_run defs (onTc (τ := τ) (main (F := Ideal))) (s₀ m ρ)
      (Pipeline.FramePost cfgs (dats m) 0 (Pipeline.afterTail₀ cfgs (dats m) 0 (V0 m) [hostOps1]))) :
    θ_run defs (onTc (τ := τ) (main (F := Ideal))) ⟨m, fun _ => 0, ρ⟩ (fun r => ∀ c : Dev nD,
      r.2.mem ((c.tc : Thread nD τ).loc main_v3) = (fun _ => Cert.PgLoss.loss (predA m c) (tgtA m c) (rewA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hA : ∀ c w, (dats m 0 c).A w = V m c (Pipeline.arrRef spec0 w) := fun c w => by dsimp only [dats]
  have hv3 : main_v3 ∈ Pipeline.restRefs sig (cfgs 0).spec :=
    Pipeline.mem_restRefs_of main_v3 (by decide) (by decide)
  exact (θ_run defs _ _).mono (fun r h c =>
    ⟨((h c).2 main_v3 hv3).trans (tail_eq m c),
      ((h c).1 0).trans (((dats m 0 c).arrAt_in 0 rfl _).trans ((hA c 0).trans (V_main_arg0 m c))),
      ((h c).1 1).trans (((dats m 0 c).arrAt_in 1 rfl _).trans ((hA c 1).trans (V_main_arg1 m c))),
      ((h c).1 2).trans (((dats m 0 c).arrAt_in 2 rfl _).trans ((hA c 2).trans (V_main_arg2 m c)))⟩) hrun

end Cert.KernelIdeal.Body

end
-- ==== Proof.LibTakeAlongAxis.lean ====
import Idealize.ShloMosaic.Lib.ValueIdx
import Idealize.ShloMosaic.PureOps.Reduce

/-!
# `take_along_axis` on the last axis of a table, read at an index

`x[arange(R)[:, None], idx]` for a table `x : [R, N]` and ids `idx : [R, C]` (jnp's `take_along_axis(x, idx, axis=1)`)
lowers to a `stablehlo.gather` whose row axis is a BATCHING axis: operand axis 0 is paired with axis 0 of the start
indices `[R, C, 1]`, operand axis 1 is collapsed and start-indexed, there are no offset axes, and the index vector is
the unit axis 2. Result element `(r, c)` is therefore the table at row `r` and at the column `idx[r, c, 0]`, read as a
signed integer and clamped into `[0, N − 1]` (`gather_takeAlong_apply`).

jnp guards the gather with an in-range mask reduced by `and` over the unit axis; when every element of the mask is 1
the reduced mask is 1 everywhere (`reduce_andi_of_all`, the converse of `Host.reduce_andi_all`).
-/

namespace Idealize.ShloMosaic.TakeAlongAxis

open Idealize.ShloMosaic Idealize.ShloMosaic.ValueIdx

section Gather
variable {α : Type}

/-- The dimension numbers of `take_along_axis` on axis 1 of a table `[R, N]` at start indices `[R, C, 1]`, result
    `[R, C]`; their conditions `wf` are decided on a program's literal shapes. -/
abbrev takeAlongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(r, c)`: the table's row `r` at the column `idx[r, c, 0]`, read signed and clamped into
    `[0, N − 1]`. The row comes from the batching coordinate (the start on a batching axis is 0, and a collapsed or
    batching axis has no offset); the column is the clamped start (no batching, no offset). -/
theorem gather_takeAlong_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (y : (⟨2, ![R, C]⟩ : Shape).Idx) :
    Host.gather (takeAlongDims R N C wf) x idx y
      = x (ix2 ⟨(y 0).val, idx2_lt0 y⟩ ⟨min (idx (takeIdx y)).toInt.toNat (N - 1), by omega⟩) := by
  unfold Host.gather
  congr 1
  funext a
  refine Fin.ext ?_
  match a with
  | ⟨0, _⟩ =>
    -- the row: start 0, batching coordinate the result's row, no offset
    show (takeAlongDims R N C wf).start y idx 0 + (takeAlongDims R N C wf).batchCoord y 0
      + (takeAlongDims R N C wf).offCoord y 0 = (y 0).val
    have hb : (0 : Fin 2) ∈ (takeAlongDims R N C wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    -- the column: the clamped start index, no batching coordinate, no offset
    show (takeAlongDims R N C wf).start y idx 1 + (takeAlongDims R N C wf).batchCoord y 1
      + (takeAlongDims R N C wf).offCoord y 1 = min (idx (takeIdx y)).toInt.toNat (N - 1)
    have hc : (1 : Fin 2) ∈ (takeAlongDims R N C wf).collapsedSliceDims := List.mem_singleton.mpr rfl
    have hnb : (1 : Fin 2) ∉ (takeAlongDims R N C wf).operandBatchingDims := by
      intro h
      have h10 : (1 : Fin 2) = 0 := List.mem_singleton.mp h
      exact absurd h10 (by decide)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos (show (1 : Fin 2) ∈ (takeAlongDims R N C wf).startIndexMap from List.mem_singleton.mpr rfl)]
    have hsi : (takeAlongDims R N C wf).siIdx y ⟨List.idxOf (1 : Fin 2) (takeAlongDims R N C wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

end Gather

section Mask

/-- A left fold by `and` over `i1` words, from 1, over words that are all 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_ones f hf l

/-- A `stablehlo.reduce` by `and` from 1 of an `i1` array whose elements are all 1 is 1 at every result index: the
    converse of `Host.reduce_andi_all`. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

end Mask

end Idealize.ShloMosaic.TakeAlongAxis
-- ==== Proof.RefValue.lean ====
import proofs.«404340_j11991548690975_1_alg».proof.Proof.RefRead
import proofs.«404340_j11991548690975_1_alg».proof.Proof.Spec
import proofs.«404340_j11991548690975_1_alg».proof.Proof.LibTakeAlongAxis
import Idealize.ShloMosaic.Lib.ValueIdx
import Idealize.ShloMosaic.Lib.StableHlo.Predicate
import Idealize.ShloMosaic.PureOps.Ideal.Laws

/-!
# The reference program's result is the loss

For target ids that are all below the vocabulary size 50257, the reference's `take_along_axis` reads, at
(row r, position s), the score of row r at the id `tgt[r, s]`: the wrap branch for negative ids is not taken,
the in-range mask is 1 everywhere, so the select against the fill value keeps the gathered score, and the
gather's clamp leaves an in-range id unchanged. The rest of the program is the loss expression itself: the
product with the reward, the sum over all rows and positions from the zero word's value, the negation and the
division by the word for 4096.0.
-/

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.StableHlo.Predicate Idealize.ShloMosaic.TakeAlongAxis

/-! ## Words: an id below 50257 under the program's comparisons -/

/-- A word below 2³¹ does not test negative. -/
theorem slt_zero_of_small {a : BitVec 32} (ha : a.toNat < 2 ^ 31) : IntOp.cmpi .slt a 0#32 = 0#1 := by
  apply eq_zero_of_ne_one
  rw [slt_iff_toNat ha (by decide)]
  show ¬ a.toNat < 0
  omega

/-- A word below 2³¹ tests nonnegative. -/
theorem sge_zero_of_small {a : BitVec 32} (ha : a.toNat < 2 ^ 31) : IntOp.cmpi .sge a 0#32 = 1#1 := by
  rw [sge_iff_toNat ha (by decide)]
  show 0 ≤ a.toNat
  omega

/-- An id below 50257 is at most 50256. -/
theorem sle_last_of_lt {a : BitVec 32} (ha : a.toNat < 50257) : IntOp.cmpi .sle a 50256#32 = 1#1 := by
  rw [sle_iff_toNat (by omega) (by decide)]
  show a.toNat ≤ 50256
  omega

/-- A word below 2³¹ read signed and then as a natural number is the word read unsigned. -/
theorem toInt_toNat_of_small {a : BitVec 32} (ha : a.toNat < 2 ^ 31) : a.toInt.toNat = a.toNat := by
  rw [toInt_eq_toNat_of_lt ha]; rfl

/-! ## The reshape to a unit last axis keeps (row, position) -/

/-- The reshaped ids at `[r, s, 0]` are the ids at `(r, s)`. -/
theorem idx_v5_takeIdx (j : S4096x20.Idx) : idx_main_call0_v5 (takeIdx j) = j := by
  funext a
  have h0 : (j 0).val < 4096 := idx2_lt0 j
  have h1 : (j 1).val < 20 := idx2_lt1 j
  match a with
  | ⟨0, _⟩ =>
    apply Fin.ext
    show (((j 0).val * 20 + (j 1).val) * 1 + 0) / 20 = (j 0).val
    omega
  | ⟨1, _⟩ =>
    apply Fin.ext
    show (((j 0).val * 20 + (j 1).val) * 1 + 0) % 20 = (j 1).val
    omega

variable (x0 : (⟨S4096x50257, .f32⟩ : BufTy).Contents (Elt Ideal)) (x1 : (⟨S4096x20, .i32⟩ : BufTy).Contents (Elt Ideal))
  (x2 : (⟨S4096x20, .f32⟩ : BufTy).Contents (Elt Ideal))

/-! ## The index arithmetic of `take_along_axis` under the range -/

/-- The wrap `select(tgt < 0, tgt + 50257, tgt)` leaves an id in range unchanged. -/
theorem v4_eq (hR : ∀ j, (x1 j).toNat < 50257) (j : S4096x20.Idx) : val_main_call0_v4 (F := Ideal) x1 j = x1 j := by
  rw [val_main_call0_v4_apply, val_main_call0_v1_apply]
  have hz : IntOp.cmpi .slt (x1 j) (val_main_call0_v0 (F := Ideal) j) = 0#1 :=
    slt_zero_of_small (a := x1 j) (by have := hR j; omega)
  rw [hz, select_zero]

/-- The reshaped ids are the ids, at the (row, position) the reshape keeps. -/
theorem v5_eq (hR : ∀ j, (x1 j).toNat < 50257) (i : S4096x20x1.Idx) :
    val_main_call0_v5 (F := Ideal) x1 i = x1 (idx_main_call0_v5 i) := by
  rw [val_main_call0_v5_apply, v4_eq x1 hR]

/-- The in-range mask `0 ≤ id ≤ 50256` is 1 at every element. -/
theorem v11_eq (hR : ∀ j, (x1 j).toNat < 50257) (i : S4096x20x1.Idx) : val_main_call0_v11 (F := Ideal) x1 i = 1#1 := by
  rw [val_main_call0_v11_apply, val_main_call0_v7_apply, val_main_call0_v10_apply, v5_eq x1 hR]
  have hlt := hR (idx_main_call0_v5 i)
  have h7 : IntOp.cmpi .sge (x1 (idx_main_call0_v5 i)) (val_main_call0_v6 (F := Ideal) i) = 1#1 :=
    sge_zero_of_small (a := x1 (idx_main_call0_v5 i)) (by omega)
  have h10 : IntOp.cmpi .sle (x1 (idx_main_call0_v5 i)) (val_main_call0_v9 (F := Ideal) i) = 1#1 :=
    sle_last_of_lt (a := x1 (idx_main_call0_v5 i)) hlt
  rw [h7, h10]
  decide

/-- So the mask reduced by `and` over the unit axis is 1 at every (row, position). -/
theorem v12_eq (hR : ∀ j, (x1 j).toNat < 50257) (j : S4096x20.Idx) : val_main_call0_v12 (F := Ideal) x1 j = 1#1 := by
  unfold val_main_call0_v12
  exact reduce_andi_of_all _ _ _ _ rfl (v11_eq x1 hR) j

/-- The gather reads row r of the scores at the id `tgt[r, s]`: the selected score. -/
theorem v13_eq (hR : ∀ j, (x1 j).toNat < 50257) (j : S4096x20.Idx) :
    val_main_call0_v13 (F := Ideal) x0 x1 j = Cert.PgLoss.picked x0 x1 j := by
  unfold val_main_call0_v13
  have hg := gather_takeAlong_apply (R := 4096) (N := 50257) (C := 20) (by decide)
    Facts₀.gather_S4096x50257_S4096x20x1_S4096x20_n_1_0_0_1_2_11_wf x0 (val_main_call0_v5 (F := Ideal) x1) j
  refine hg.trans ?_
  rw [Cert.PgLoss.picked_eq x0 x1 j (hR j)]
  congr 1
  funext a
  match a with
  | ⟨0, _⟩ => rfl
  | ⟨1, _⟩ =>
    apply Fin.ext
    show min (val_main_call0_v5 (F := Ideal) x1 (takeIdx j)).toInt.toNat (50257 - 1) = (x1 j).toNat
    rw [v5_eq x1 hR, idx_v5_takeIdx, toInt_toNat_of_small (by have := hR j; omega)]
    have := hR j
    omega

/-- The guarded gather is the selected score. -/
theorem v0_eq (hR : ∀ j, (x1 j).toNat < 50257) (j : S4096x20.Idx) :
    val_main_v0 (F := Ideal) x0 x1 j = Cert.PgLoss.picked x0 x1 j := by
  rw [val_main_v0_apply, v12_eq x1 hR, select_one, v13_eq x0 x1 hR]

/-! ## The result -/

theorem ref_loss (hR : ∀ j, (x1 j).toNat < 50257) :
    Cert.ReferenceIdeal.ReadP.val_main_v4 (F := Ideal) x0 x1 x2 = fun _ => Cert.PgLoss.loss x0 x1 x2 := by
  funext i
  rw [val_main_v4_apply, val_main_v3_apply, val_main_v2_apply]
  simp only [val_main_v1_apply, v0_eq x0 x1 hR]
  rfl

end Cert.ReferenceIdeal.RefValue

end
-- ==== Proof.PreRange.lean ====
import proofs.«404340_j11991548690975_1_alg».proof.Pre_finite_inputs
import Idealize.ShloMosaic.Lib.ReduceAll
import Idealize.ShloMosaic.Lib.ValueIdx

/-!
# The target ids' range, read off the printed precondition

The precondition is a conjunction of four `jnp.all`s. Its last two say that every target id, read as a
signed 32-bit word, is at least 0 and below 50257. A signed word that is nonnegative reads the same
unsigned, so every id read unsigned is below 50257: the form in which the reference's and the kernel's
index arithmetic use it.
-/

namespace Cert.PgLoss

open Idealize.ShloMosaic

/-- The scalar shape has one index. -/
instance : Subsingleton Cert.Pre_finite_inputs.S_.Idx := ⟨fun a b => funext fun d => d.elim0⟩

/-- A 32-bit word that is nonnegative and below 50257 when read signed is below 50257 when read unsigned. -/
theorem toNat_lt_of_toInt_range {a : BitVec 32} (h0 : 0 ≤ a.toInt) (h1 : a.toInt < 50257) : a.toNat < 50257 := by
  rw [BitVec.toInt_eq_toNat_cond] at h0 h1
  have hlt := a.isLt
  split at h0 <;> omega

theorem range_of_pre {F : FTy → Type} [FloatOps F] [Cert.Pre_finite_inputs.Facts]
    (a0 : FVec F Cert.Pre_finite_inputs.S4096x50257 .f32) (a1 : IVec Cert.Pre_finite_inputs.S4096x20 32) (a2 : FVec F Cert.Pre_finite_inputs.S4096x20 .f32)
    (h : Cert.Pre_finite_inputs.fn (F := F) a0 a1 a2 = fun _ => 1#1) : ∀ j : Cert.Pre_finite_inputs.S4096x20.Idx, (a1 j).toNat < 50257 := by
  intro j
  -- the predicate's one word is 1
  have hw := congrFun h ValueIdx.ix0
  dsimp only [Cert.Pre_finite_inputs.fn, Cert.Pre_finite_inputs.fn_part1] at hw
  -- the outer conjunction: (finiteness ∧ all (0 ≤ id)) ∧ all (id < 50257)
  obtain ⟨hleft, hlt_all⟩ := IntOp.andi_eq_one.1 hw
  obtain ⟨-, hge_all⟩ := IntOp.andi_eq_one.1 hleft
  -- each `all` holds at the id j
  have hge := Host.reduce_andi_all _ _ _ _ _ hge_all j
  have hlt := Host.reduce_andi_all _ _ _ _ _ hlt_all j
  -- the two comparisons at j are against the broadcast constants 0 and 50257
  have hge' : IntOp.cmpi .sge (a1 j) 0#32 = 1#1 := hge
  have hlt' : IntOp.cmpi .slt (a1 j) 50257#32 = 1#1 := hlt
  rw [IntOp.cmpi_sge] at hge'
  rw [IntOp.cmpi_slt] at hlt'
  exact toNat_lt_of_toInt_range (by simpa using hge') (by simpa using hlt')

end Cert.PgLoss
-- ==== Proof.Claims.lean ====
/-
  The five claims. The kernel and the reference both compute the policy-gradient loss
      -( sum over rows r and positions s of pred[r, target[r, s]] * reward[r, s] ) / 4096
  (Spec.lean) once every target id lies in [0, 50257): the kernel gathers each selected score by comparing the target
  id with the vocabulary ids of the 50 tiles of a row and summing the matches — over the extended reals a non-matching
  lane contributes 0 * x = 0 whatever x is, the lanes past the array's end included —, the reference by a gather whose
  wrap-around and out-of-range fill are inert for ids in range. The frames: each program runs to the end and leaves its
  three arguments as they were; the word-level kernel's needs no precondition at all.
-/
import proofs.«404340_j11991548690975_1_alg».proof.Defs
import proofs.«404340_j11991548690975_1_alg».proof.Proof.Gen.Kernel
import proofs.«404340_j11991548690975_1_alg».proof.Proof.Gen.KernelIdeal
import proofs.«404340_j11991548690975_1_alg».proof.Proof.Gen.ReferenceIdeal
import proofs.«404340_j11991548690975_1_alg».proof.Proof.Gen.Pre_finite_inputs
import proofs.«404340_j11991548690975_1_alg».proof.Proof.BitsFrame
import proofs.«404340_j11991548690975_1_alg».proof.Proof.IdealFrame
import proofs.«404340_j11991548690975_1_alg».proof.Proof.IdealSteps
import proofs.«404340_j11991548690975_1_alg».proof.Proof.IdealValue
import proofs.«404340_j11991548690975_1_alg».proof.Proof.RefValue
import proofs.«404340_j11991548690975_1_alg».proof.Proof.PreRange

noncomputable section

namespace Cert.Proof.PgClaims

open Idealize.ShloMosaic Idealize.ShloMosaic.TcCoe Idealize.SL.Sem

/-- The word-level kernel's frame, for any memory. -/
theorem frame_k : Cert.frame_Kernel := fun m ρ _ => Cert.Kernel.Body.frame (F := Bits) m ρ

/-- Under the precondition every target id, read unsigned, is below 50257. -/
theorem ids_in_range (m : (ℓ : Loc Cert.KernelIdeal.nD Cert.KernelIdeal.τ Cert.KernelIdeal.sig) → Buf (Elt Ideal) ℓ) (hpre : Cert.Pre_KernelIdeal m)
    (c : Dev Cert.KernelIdeal.nD) (j : Cert.KernelIdeal.S4096x20.Idx) : (Cert.KernelIdeal.Body.tgtA m c j).toNat < 50257 :=
  Cert.PgLoss.range_of_pre _ _ _ (hpre c) j

/-- The idealized kernel's run: the result is the loss of the arguments, which end unchanged. -/
theorem kernel_loss (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3)
          = (fun _ => Cert.PgLoss.loss (Cert.KernelIdeal.Body.predA m c) (Cert.KernelIdeal.Body.tgtA m c) (Cert.KernelIdeal.Body.rewA m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  Cert.KernelIdeal.Body.kernel_result m ρ
    (Cert.KernelIdeal.Body.run_main m ρ (Cert.KernelIdeal.Body.stepFacts_of_range m (ids_in_range m hpre)))

theorem frame_ki : Cert.frame_KernelIdeal := fun m ρ hpre =>
  (θ_run Cert.KernelIdeal.defs _ _).mono (fun _ h c => (h c).2) (kernel_loss m ρ hpre)

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end at the loss of the (agreeing) arguments. -/
theorem algebraic : Cert.algebraic_KernelIdeal_ReferenceIdeal := by
  intro m ρ m' ρ' hpre hagree
  refine ⟨fun c => fun _ => Cert.PgLoss.loss (Cert.KernelIdeal.Body.predA m c) (Cert.KernelIdeal.Body.tgtA m c) (Cert.KernelIdeal.Body.rewA m c),
    kernel_loss m ρ hpre, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.ReadP.val_main_v4_eq _ _ _).trans
    (Cert.ReferenceIdeal.RefValue.ref_loss _ _ _ (ids_in_range m hpre c))

end Cert.Proof.PgClaims

end
-- ==== Proof.lean ====
/-
  The certificate of the policy-gradient-loss kernel against its reference: the conjunction of the three frames, the
  (empty) idealization ledger and the equality of the two idealized programs' results, each proved in Proof/Claims.lean;
  the programs' stated side conditions are the generated facts.
-/
import proofs.«404340_j11991548690975_1_alg».proof.Defs
import proofs.«404340_j11991548690975_1_alg».proof.Proof.Gen.Kernel
import proofs.«404340_j11991548690975_1_alg».proof.Proof.Gen.KernelIdeal
import proofs.«404340_j11991548690975_1_alg».proof.Proof.Gen.ReferenceIdeal
import proofs.«404340_j11991548690975_1_alg».proof.Proof.Gen.Pre_finite_inputs
import proofs.«404340_j11991548690975_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  PgClaims.frame_k, PgClaims.frame_ki, PgClaims.frame_ri, PgClaims.preserves, PgClaims.algebraic⟩

end Cert.Proof

end
